-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S50000 : Shape := ⟨1, ![50000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S8x1 : Shape := ⟨2, ![8, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_
  bcast_S_S8x1 : S_.BroadcastsInDim S8x1 (![] : Fin 0 → Fin S8x1.rank)
  reducesTo_S8x1_S_d0_1 : S8x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S1 .f32) (main_v48 : IVec S_ 1) (main_v49 : FVec F S8x1 .f32) (main_v50 : FVec F S8x1 .f32) : IVec S_ 1 :=
  let main_v51 : IVec S8x1 1 := cmpf .olt main_v49 main_v50
  let main_c_19 : IVec S_ 1 := constantI S_ 1 1#1
  let main_v52 : IVec S_ 1 := (fun x v => Host.reduce IntOp.andi x v reducesTo_S8x1_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg9 : FVec F S16 .f32) (main_arg10 : FVec F S16x8 .f32) (main_arg11 : FVec F S8 .f32) (main_arg12 : FVec F S8x1 .f32) (main_arg13 : FVec F S1 .f32) (main_v33 : IVec S_ 1) : IVec S_ 1 :=
  let main_v34 : FVec F S16 .f32 := Host.absf main_arg9
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S16x8 .f32 := Host.absf main_arg10
  let main_cst_14 : FVec F S_ .f32 := constant S_ .f32 0x7F800000#32
  let main_v40 : FVec F S16x8 .f32 := broadcastInDim S16x8 ![] bcast_S_S16x8 main_cst_14
  let main_v41 : IVec S16x8 1 := cmpf .olt main_v39 main_v40
  let main_c_15 : IVec S_ 1 := constantI S_ 1 1#1
  let main_v42 : IVec S_ 1 := (fun x v => Host.reduce IntOp.andi x v reducesTo_S16x8_S_d0_1 h_S_) main_v41 main_c_15
  let main_v43 : IVec S_ 1 := andi main_v38 main_v42
  let main_v44 : FVec F S8 .f32 := Host.absf main_arg11
  let main_cst_16 : FVec F S_ .f32 := constant S_ .f32 0x7F800000#32
  let main_v45 : FVec F S8 .f32 := broadcastInDim S8 ![] bcast_S_S8 main_cst_16
  let main_v46 : IVec S8 1 := cmpf .olt main_v44 main_v45
  let main_c_17 : IVec S_ 1 := constantI S_ 1 1#1
  let main_v47 : IVec S_ 1 := (fun x v => Host.reduce IntOp.andi x v reducesTo_S8_S_d0 h_S_) main_v46 main_c_17
  let main_v48 : IVec S_ 1 := andi main_v43 main_v47
  let main_v49 : FVec F S8x1 .f32 := Host.absf main_arg12
  let main_cst_18 : FVec F S_ .f32 := constant S_ .f32 0x7F800000#32
  let main_v50 : FVec F S8x1 .f32 := broadcastInDim S8x1 ![] bcast_S_S8x1 main_cst_18
  fn_part3 (F := F) main_arg13 main_v48 main_v49 main_v50

def fn_part1 {F : FTy → Type} [FloatOps F] (main_arg6 : FVec F S64x32 .f32) (main_arg7 : FVec F S32 .f32) (main_arg8 : FVec F S32x16 .f32) (main_arg9 : FVec F S16 .f32) (main_arg10 : FVec F S16x8 .f32) (main_arg11 : FVec F S8 .f32) (main_arg12 : FVec F S8x1 .f32) (main_arg13 : FVec F S1 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64x32 .f32 := Host.absf main_arg6
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg7
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x16 .f32 := Host.absf main_arg8
  let main_cst_10 : FVec F S_ .f32 := constant S_ .f32 0x7F800000#32
  let main_v30 : FVec F S32x16 .f32 := broadcastInDim S32x16 ![] bcast_S_S32x16 main_cst_10
  let main_v31 : IVec S32x16 1 := cmpf .olt main_v29 main_v30
  let main_c_11 : IVec S_ 1 := constantI S_ 1 1#1
  let main_v32 : IVec S_ 1 := (fun x v => Host.reduce IntOp.andi x v reducesTo_S32x16_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S50000x128 .f32) (main_arg1 : IVec S2x600000 32) (main_arg2 : IVec S50000 32) (main_arg3 : FVec F S128x64 .f32) (main_arg4 : FVec F S64 .f32) (main_arg5 : FVec F S128x64 .f32) (main_arg6 : FVec F S64x32 .f32) (main_arg7 : FVec F S32 .f32) (main_arg8 : FVec F S32x16 .f32) (main_arg9 : FVec F S16 .f32) (main_arg10 : FVec F S16x8 .f32) (main_arg11 : FVec F S8 .f32) (main_arg12 : FVec F S8x1 .f32) (main_arg13 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_arg7 main_arg8 main_arg9 main_arg10 main_arg11 main_arg12 main_arg13 main_v13 main_v16
-- ==== Kernel.lean ====
abbrev S50000x128 : Shape := ⟨2, ![50000, 128]⟩
abbrev S2x600000 : Shape := ⟨2, ![2, 600000]⟩
abbrev S50000 : Shape := ⟨1, ![50000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S8x1 : Shape := ⟨2, ![8, 1]⟩
abbrev S1 : Shape := ⟨1, ![1]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000x1 : Shape := ⟨2, ![50000, 1]⟩
abbrev S1x64 : Shape := ⟨2, ![1, 64]⟩
abbrev S50000x64 : Shape := ⟨2, ![50000, 64]⟩
abbrev S2000x128 : Shape := ⟨2, ![2000, 128]⟩
abbrev S2000x1 : Shape := ⟨2, ![2000, 1]⟩
abbrev S2000x64 : Shape := ⟨2, ![2000, 64]⟩
abbrev S500x64 : Shape := ⟨2, ![500, 64]⟩
abbrev S500 : Shape := ⟨1, ![500]⟩
abbrev S500x1 : Shape := ⟨2, ![500, 1]⟩
abbrev S1x32 : Shape := ⟨2, ![1, 32]⟩
abbrev S1x16 : Shape := ⟨2, ![1, 16]⟩
abbrev S1x8 : Shape := ⟨2, ![1, 8]⟩
abbrev S1x1 : Shape := ⟨2, ![1, 1]⟩
abbrev S500x32 : Shape := ⟨2, ![500, 32]⟩
abbrev S500x16 : Shape := ⟨2, ![500, 16]⟩
abbrev S500x8 : Shape := ⟨2, ![500, 8]⟩

abbrev nBuf : Space → Nat
  | .hbm => 56
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S50000, .i32⟩
  | .hbm, ⟨3, _⟩ => ⟨S128x64, .f32⟩
  | .hbm, ⟨4, _⟩ => ⟨S64, .f32⟩
  | .hbm, ⟨5, _⟩ => ⟨S128x64, .f32⟩
  | .hbm, ⟨6, _⟩ => ⟨S64x32, .f32⟩
  | .hbm, ⟨7, _⟩ => ⟨S32, .f32⟩
  | .hbm, ⟨8, _⟩ => ⟨S32x16, .f32⟩
  | .hbm, ⟨9, _⟩ => ⟨S16, .f32⟩
  | .hbm, ⟨10, _⟩ => ⟨S16x8, .f32⟩
  | .hbm, ⟨11, _⟩ => ⟨S8, .f32⟩
  | .hbm, ⟨12, _⟩ => ⟨S8x1, .f32⟩
  | .hbm, ⟨13, _⟩ => ⟨S1, .f32⟩
  | .hbm, ⟨14, _⟩ => ⟨S1x600000, .i32⟩
  | .hbm, ⟨15, _⟩ => ⟨S600000, .i32⟩
  | .hbm, ⟨16, _⟩ => ⟨S1x600000, .i32⟩
  | .hbm, ⟨17, _⟩ => ⟨S600000, .i32⟩
  | .hbm, ⟨18, _⟩ => ⟨S_, .i32⟩
  | .hbm, ⟨19, _⟩ => ⟨S600000, .i32⟩
  | .hbm, ⟨20, _⟩ => ⟨S600000, .i1⟩
  | .hbm, ⟨21, _⟩ => ⟨S_, .i32⟩
  | .hbm, ⟨22, _⟩ => ⟨S600000, .i32⟩
  | .hbm, ⟨23, _⟩ => ⟨S600000, .i32⟩
  | .hbm, ⟨24, _⟩ => ⟨S600000, .i32⟩
  | .hbm, ⟨25, _⟩ => ⟨S600000x1, .i32⟩
  | .hbm, ⟨26, _⟩ => ⟨S600000x128, .f32⟩
  | .hbm, ⟨27, _⟩ => ⟨S_, .f32⟩
  | .hbm, ⟨28, _⟩ => ⟨S50000x128, .f32⟩
  | .hbm, ⟨29, _⟩ => ⟨S600000x1, .i32⟩
  | .hbm, ⟨30, _⟩ => ⟨S50000x128, .f32⟩
  | .hbm, ⟨31, _⟩ => ⟨S_, .f32⟩
  | .hbm, ⟨32, _⟩ => ⟨S600000, .f32⟩
  | .hbm, ⟨33, _⟩ => ⟨S_, .f32⟩
  | .hbm, ⟨34, _⟩ => ⟨S50000, .f32⟩
  | .hbm, ⟨35, _⟩ => ⟨S600000x1, .i32⟩
  | .hbm, ⟨36, _⟩ => ⟨S50000, .f32⟩
  | .hbm, ⟨37, _⟩ => ⟨S50000x1, .f32⟩
  | .hbm, ⟨38, _⟩ => ⟨S1x64, .f32⟩
  | .hbm, ⟨39, _⟩ => ⟨S50000x64, .f32⟩
  | .hbm, ⟨40, _⟩ => ⟨S_, .f32⟩
  | .hbm, ⟨41, _⟩ => ⟨S500x64, .f32⟩
  | .hbm, ⟨42, _⟩ => ⟨S50000x1, .i32⟩
  | .hbm, ⟨43, _⟩ => ⟨S500x64, .f32⟩
  | .hbm, ⟨44, _⟩ => ⟨S_, .f32⟩
  | .hbm, ⟨45, _⟩ => ⟨S50000, .f32⟩
  | .hbm, ⟨46, _⟩ => ⟨S_, .f32⟩
  | .hbm, ⟨47, _⟩ => ⟨S500, .f32⟩
  | .hbm, ⟨48, _⟩ => ⟨S50000x1, .i32⟩
  | .hbm, ⟨49, _⟩ => ⟨S500, .f32⟩
  | .hbm, ⟨50, _⟩ => ⟨S500x1, .f32⟩
  | .hbm, ⟨51, _⟩ => ⟨S1x32, .f32⟩
  | .hbm, ⟨52, _⟩ => ⟨S1x16, .f32⟩
  | .hbm, ⟨53, _⟩ => ⟨S1x8, .f32⟩
  | .hbm, ⟨54, _⟩ => ⟨S1x1, .f32⟩
  | .hbm, ⟨55, _⟩ => ⟨S500x1, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .f32⟩
  | .local _ .vmem, ⟨5, _⟩ => ⟨S2000x128, .f32⟩
  | .local _ .vmem, ⟨6, _⟩ => ⟨S128x64, .f32⟩
  | .local _ .vmem, ⟨7, _⟩ => ⟨S1x64, .f32⟩
  | .local _ .vmem, ⟨8, _⟩ => ⟨S128x64, .f32⟩
  | .local _ .vmem, ⟨9, _⟩ => ⟨S2000x64, .f32⟩
  | .local _ .vmem, ⟨10, _⟩ => ⟨S2000x64, .f32⟩
  | .local _ .vmem, ⟨11, _⟩ => ⟨S500x64, .f32⟩
  | .local _ .vmem, ⟨12, _⟩ => ⟨S500x1, .f32⟩
  | .local _ .vmem, ⟨13, _⟩ => ⟨S64x32, .f32⟩
  | .local _ .vmem, ⟨14, _⟩ => ⟨S1x32, .f32⟩
  | .local _ .vmem, ⟨15, _⟩ => ⟨S32x16, .f32⟩
  | .local _ .vmem, ⟨16, _⟩ => ⟨S1x16, .f32⟩
  | .local _ .vmem, ⟨17, _⟩ => ⟨S16x8, .f32⟩
  | .local _ .vmem, ⟨18, _⟩ => ⟨S1x8, .f32⟩
  | .local _ .vmem, ⟨19, _⟩ => ⟨S8x1, .f32⟩
  | .local _ .vmem, ⟨20, _⟩ => ⟨S1x1, .f32⟩
  | .local _ .vmem, ⟨21, _⟩ => ⟨S500x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_4 : Ref sig .tc := ⟨.hbm, 44, rfl⟩
abbrev main_v24 : Ref sig .tc := ⟨.hbm, 45, rfl⟩
abbrev main_cst_5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg10_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem10_0 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S500x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S500x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S16x8 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x8 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S8x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S500x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  shapeCasts_S50000_S50000x1 : S50000.ShapeCasts S50000x1
  shapeCasts_S64_S1x64 : S64.ShapeCasts S1x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S2000x1_S2000x128 : S2000x1.Broadcasts S2000x128
  inb_S128x64_S128x64_0_0 : ∀ a, (![0, 0] : Fin 2 → Nat) a + S128x64.size a ≤ S128x64.size a
  h_S128x64 : 0 < S128x64.numel
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  bcast_S_S500x64 : S_.BroadcastsInDim S500x64 (![] : Fin 0 → Fin S500x64.rank)
  bcast_S50000_S50000x1_0 : S50000.BroadcastsInDim S50000x1 (![0] : Fin 1 → Fin S50000x1.rank)
  bcast_S_S500 : S_.BroadcastsInDim S500 (![] : Fin 0 → Fin S500.rank)
  shapeCasts_S500_S500x1 : S500.ShapeCasts S500x1
  shapeCasts_S32_S1x32 : S32.ShapeCasts S1x32
  shapeCasts_S16_S1x16 : S16.ShapeCasts S1x16
  shapeCasts_S8_S1x8 : S8.ShapeCasts S1x8
  shapeCasts_S1_S1x1 : S1.ShapeCasts S1x1
  inb_S500x1_S500x1_0_0 : ∀ a, (![0, 0] : Fin 2 → Nat) a + S500x1.size a ≤ S500x1.size a
  h_S500x1 : 0 < S500x1.numel
  shapeCasts_S500x1_S500x1 : S500x1.ShapeCasts S500x1
  inb_S500x64_S500x64_0_0 : ∀ a, (![0, 0] : Fin 2 → Nat) a + S500x64.size a ≤ S500x64.size a
  h_S500x64 : 0 < S500x64.numel
  shapeCasts_S500x64_S500x64 : S500x64.ShapeCasts S500x64
  broadcasts_S500x1_S500x64 : S500x1.Broadcasts S500x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S500x32 : S1x32.Broadcasts S500x32
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S500x16 : S1x16.Broadcasts S500x16
  inb_S16x8_S16x8_0_0 : ∀ a, (![0, 0] : Fin 2 → Nat) a + S16x8.size a ≤ S16x8.size a
  h_S16x8 : 0 < S16x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S500x8 : S1x8.Broadcasts S500x8
  inb_S8x1_S8x1_0_0 : ∀ a, (![0, 0] : Fin 2 → Nat) a + S8x1.size a ≤ S8x1.size a
  h_S8x1 : 0 < S8x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S500x1 : S1x1.Broadcasts S500x1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S2000x128_S128x64_S2000x64_1_0_0_1_n_n_wf : DotDims.WF S2000x128 S128x64 S2000x64 [1] [0] [0] [1] [] []
  scatter_S500x64_S50000x1_S50000x64_1_0_0_1_wf : ScatterDims.WF S500x64 S50000x1 S50000x64 [1] [0] [0] 1
  scatter_S500_S50000x1_S50000_n_0_0_1_wf : ScatterDims.WF S500 S50000x1 S50000 [] [0] [0] 1
  dot_S500x64_S64x32_S500x32_1_0_0_1_n_n_wf : DotDims.WF S500x64 S64x32 S500x32 [1] [0] [0] [1] [] []
  dot_S500x32_S32x16_S500x16_1_0_0_1_n_n_wf : DotDims.WF S500x32 S32x16 S500x16 [1] [0] [0] [1] [] []
  dot_S500x16_S16x8_S500x8_1_0_0_1_n_n_wf : DotDims.WF S500x16 S16x8 S500x8 [1] [0] [0] [1] [] []
  dot_S500x8_S8x1_S500x1_1_0_0_1_n_n_wf : DotDims.WF S500x8 S8x1 S500x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x64.size a ≤ S50000x64.size a
  hwx0_6 : ∀ i : grid0.Coords, EltTy.bits .f32 = 32 ∨ (Rect.block (s := S50000x64) S2000x64.size (cc0_transform_6 i) (hinb0_6 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S500x64.size a ≤ S500x64.size a
  hwx1_0 : ∀ i : grid1.Coords, EltTy.bits .f32 = 32 ∨ (Rect.block (s := S500x64) S500x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S500x1.size a ≤ S500x1.size a
  hwx1_1 : ∀ i : grid1.Coords, EltTy.bits .f32 = 32 ∨ (Rect.block (s := S500x1) S500x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x16.size a ≤ S32x16.size a
  hwx1_4 : ∀ i : grid1.Coords, EltTy.bits .f32 = 32 ∨ (Rect.block (s := S32x16) S32x16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x16.size a ≤ S1x16.size a
  hwx1_5 : ∀ i : grid1.Coords, EltTy.bits .f32 = 32 ∨ (Rect.block (s := S1x16) S1x16.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S16x8.size a ≤ S16x8.size a
  hwx1_6 : ∀ i : grid1.Coords, EltTy.bits .f32 = 32 ∨ (Rect.block (s := S16x8) S16x8.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x8.size a ≤ S1x8.size a
  hwx1_7 : ∀ i : grid1.Coords, EltTy.bits .f32 = 32 ∨ (Rect.block (s := S1x8) S1x8.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S8x1.size a ≤ S8x1.size a
  hwx1_8 : ∀ i : grid1.Coords, EltTy.bits .f32 = 32 ∨ (Rect.block (s := S8x1) S8x1.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x1.size a ≤ S1x1.size a
  hwx1_9 : ∀ i : grid1.Coords, EltTy.bits .f32 = 32 ∨ (Rect.block (s := S1x1) S1x1.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S500x1.size a ≤ S500x1.size a
  hwx1_10 : ∀ i : grid1.Coords, EltTy.bits .f32 = 32 ∨ (Rect.block (s := S500x1) S500x1.size (cc1_transform_10 i) (hinb1_10 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def scatter_S500x64_S50000x1_S50000x64_1_0_0_1 : ScatterDims S500x64 S50000x1 S50000x64 where
  updateWindowDims := [1]
  insertedWindowDims := [0]
  scatterDimsToOperandDims := [0]
  indexVectorDim := 1
  wf := scatter_S500x64_S50000x1_S50000x64_1_0_0_1_wf
def scatter_S500_S50000x1_S50000_n_0_0_1 : ScatterDims S500 S50000x1 S50000 where
  updateWindowDims := []
  insertedWindowDims := [0]
  scatterDimsToOperandDims := [0]
  indexVectorDim := 1
  wf := scatter_S500_S50000x1_S50000_n_0_0_1_wf
def dot_S500x64_S64x32_S500x32_1_0_0_1_n_n : DotDims S500x64 S64x32 S500x32 where
  lhsContracting := [1]
  rhsContracting := [0]
  lhsNonContracting := [0]
  rhsNonContracting := [1]
  lhsBatch := []
  rhsBatch := []
  wf := dot_S500x64_S64x32_S500x32_1_0_0_1_n_n_wf
def dot_S500x32_S32x16_S500x16_1_0_0_1_n_n : DotDims S500x32 S32x16 S500x16 where
  lhsContracting := [1]
  rhsContracting := [0]
  lhsNonContracting := [0]
  rhsNonContracting := [1]
  lhsBatch := []
  rhsBatch := []
  wf := dot_S500x32_S32x16_S500x16_1_0_0_1_n_n_wf
def dot_S500x16_S16x8_S500x8_1_0_0_1_n_n : DotDims S500x16 S16x8 S500x8 where
  lhsContracting := [1]
  rhsContracting := [0]
  lhsNonContracting := [0]
  rhsNonContracting := [1]
  lhsBatch := []
  rhsBatch := []
  wf := dot_S500x16_S16x8_S500x8_1_0_0_1_n_n_wf
def dot_S500x8_S8x1_S500x1_1_0_0_1_n_n : DotDims S500x8 S8x1 S500x1 where
  lhsContracting := [1]
  rhsContracting := [0]
  lhsNonContracting := [0]
  rhsNonContracting := [1]
  lhsBatch := []
  rhsBatch := []
  wf := dot_S500x8_S8x1_S500x1_1_0_0_1_n_n_wf

abbrev win0_0 : Pipeline.Window sig grid0 :=
  Pipeline.Window.ofSpec (Memref.whole main_v13) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S2000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v23) S500x64.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v28) S500x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S32x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S1x16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S16x8.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v31) S1x8.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg12) S8x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v32) S1x1.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v33) S500x1.size cc1_transform_10 reads1_10 true true 1 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S50000 : Shape := ⟨1, ![50000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S8x1 : Shape := ⟨2, ![8, 1]⟩
abbrev S1 : Shape := ⟨1, ![1]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000x1 : Shape := ⟨2, ![50000, 1]⟩
abbrev S50000x64 : Shape := ⟨2, ![50000, 64]⟩
abbrev S1x64 : Shape := ⟨2, ![1, 64]⟩
abbrev S500x64 : Shape := ⟨2, ![500, 64]⟩
abbrev S500 : Shape := ⟨1, ![500]⟩
abbrev S500x1 : Shape := ⟨2, ![500, 1]⟩
abbrev S500x32 : Shape := ⟨2, ![500, 32]⟩
abbrev S1x32 : Shape := ⟨2, ![1, 32]⟩
abbrev S500x16 : Shape := ⟨2, ![500, 16]⟩
abbrev S1x16 : Shape := ⟨2, ![1, 16]⟩
abbrev S500x8 : Shape := ⟨2, ![500, 8]⟩
abbrev S1x8 : Shape := ⟨2, ![1, 8]⟩
abbrev S1x1 : Shape := ⟨2, ![1, 1]⟩

abbrev nBuf : Space → Nat
  | .hbm => 90
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S50000, .i32⟩
  | .hbm, ⟨3, _⟩ => ⟨S128x64, .f32⟩
  | .hbm, ⟨4, _⟩ => ⟨S64, .f32⟩
  | .hbm, ⟨5, _⟩ => ⟨S128x64, .f32⟩
  | .hbm, ⟨6, _⟩ => ⟨S64x32, .f32⟩
  | .hbm, ⟨7, _⟩ => ⟨S32, .f32⟩
  | .hbm, ⟨8, _⟩ => ⟨S32x16, .f32⟩
  | .hbm, ⟨9, _⟩ => ⟨S16, .f32⟩
  | .hbm, ⟨10, _⟩ => ⟨S16x8, .f32⟩
  | .hbm, ⟨11, _⟩ => ⟨S8, .f32⟩
  | .hbm, ⟨12, _⟩ => ⟨S8x1, .f32⟩
  | .hbm, ⟨13, _⟩ => ⟨S1, .f32⟩
  | .hbm, ⟨14, _⟩ => ⟨S1x600000, .i32⟩
  | .hbm, ⟨15, _⟩ => ⟨S600000, .i32⟩
  | .hbm, ⟨16, _⟩ => ⟨S1x600000, .i32⟩
  | .hbm, ⟨17, _⟩ => ⟨S600000, .i32⟩
  | .hbm, ⟨18, _⟩ => ⟨S_, .i32⟩
  | .hbm, ⟨19, _⟩ => ⟨S600000, .i32⟩
  | .hbm, ⟨20, _⟩ => ⟨S600000, .i1⟩
  | .hbm, ⟨21, _⟩ => ⟨S_, .i32⟩
  | .hbm, ⟨22, _⟩ => ⟨S600000, .i32⟩
  | .hbm, ⟨23, _⟩ => ⟨S600000, .i32⟩
  | .hbm, ⟨24, _⟩ => ⟨S600000, .i32⟩
  | .hbm, ⟨25, _⟩ => ⟨S600000x1, .i32⟩
  | .hbm, ⟨26, _⟩ => ⟨S600000x128, .f32⟩
  | .hbm, ⟨27, _⟩ => ⟨S_, .f32⟩
  | .hbm, ⟨28, _⟩ => ⟨S50000x128, .f32⟩
  | .hbm, ⟨29, _⟩ => ⟨S600000x1, .i32⟩
  | .hbm, ⟨30, _⟩ => ⟨S50000x128, .f32⟩
  | .hbm, ⟨31, _⟩ => ⟨S_, .f32⟩
  | .hbm, ⟨32, _⟩ => ⟨S600000, .f32⟩
  | .hbm, ⟨33, _⟩ => ⟨S_, .f32⟩
  | .hbm, ⟨34, _⟩ => ⟨S50000, .f32⟩
  | .hbm, ⟨35, _⟩ => ⟨S600000x1, .i32⟩
  | .hbm, ⟨36, _⟩ => ⟨S50000, .f32⟩
  | .hbm, ⟨37, _⟩ => ⟨S_, .f32⟩
  | .hbm, ⟨38, _⟩ => ⟨S50000, .f32⟩
  | .hbm, ⟨39, _⟩ => ⟨S50000, .f32⟩
  | .hbm, ⟨40, _⟩ => ⟨S50000x1, .f32⟩
  | .hbm, ⟨41, _⟩ => ⟨S50000x128, .f32⟩
  | .hbm, ⟨42, _⟩ => ⟨S50000x128, .f32⟩
  | .hbm, ⟨43, _⟩ => ⟨S50000x64, .f32⟩
  | .hbm, ⟨44, _⟩ => ⟨S1x64, .f32⟩
  | .hbm, ⟨45, _⟩ => ⟨S50000x64, .f32⟩
  | .hbm, ⟨46, _⟩ => ⟨S50000x64, .f32⟩
  | .hbm, ⟨47, _⟩ => ⟨S50000x64, .f32⟩
  | .hbm, ⟨48, _⟩ => ⟨S50000x64, .f32⟩
  | .hbm, ⟨49, _⟩ => ⟨S_, .f32⟩
  | .hbm, ⟨50, _⟩ => ⟨S500x64, .f32⟩
  | .hbm, ⟨51, _⟩ => ⟨S50000x1, .i32⟩
  | .hbm, ⟨52, _⟩ => ⟨S500x64, .f32⟩
  | .hbm, ⟨53, _⟩ => ⟨S_, .f32⟩
  | .hbm, ⟨54, _⟩ => ⟨S50000, .f32⟩
  | .hbm, ⟨55, _⟩ => ⟨S_, .f32⟩
  | .hbm, ⟨56, _⟩ => ⟨S500, .f32⟩
  | .hbm, ⟨57, _⟩ => ⟨S50000x1, .i32⟩
  | .hbm, ⟨58, _⟩ => ⟨S500, .f32⟩
  | .hbm, ⟨59, _⟩ => ⟨S_, .f32⟩
  | .hbm, ⟨60, _⟩ => ⟨S500, .f32⟩
  | .hbm, ⟨61, _⟩ => ⟨S500, .f32⟩
  | .hbm, ⟨62, _⟩ => ⟨S500x1, .f32⟩
  | .hbm, ⟨63, _⟩ => ⟨S500x64, .f32⟩
  | .hbm, ⟨64, _⟩ => ⟨S500x64, .f32⟩
  | .hbm, ⟨65, _⟩ => ⟨S500x32, .f32⟩
  | .hbm, ⟨66, _⟩ => ⟨S1x32, .f32⟩
  | .hbm, ⟨67, _⟩ => ⟨S500x32, .f32⟩
  | .hbm, ⟨68, _⟩ => ⟨S500x32, .f32⟩
  | .hbm, ⟨69, _⟩ => ⟨S_, .f32⟩
  | .hbm, ⟨70, _⟩ => ⟨S500x32, .f32⟩
  | .hbm, ⟨71, _⟩ => ⟨S500x32, .f32⟩
  | .hbm, ⟨72, _⟩ => ⟨S500x16, .f32⟩
  | .hbm, ⟨73, _⟩ => ⟨S1x16, .f32⟩
  | .hbm, ⟨74, _⟩ => ⟨S500x16, .f32⟩
  | .hbm, ⟨75, _⟩ => ⟨S500x16, .f32⟩
  | .hbm, ⟨76, _⟩ => ⟨S_, .f32⟩
  | .hbm, ⟨77, _⟩ => ⟨S500x16, .f32⟩
  | .hbm, ⟨78, _⟩ => ⟨S500x16, .f32⟩
  | .hbm, ⟨79, _⟩ => ⟨S500x8, .f32⟩
  | .hbm, ⟨80, _⟩ => ⟨S1x8, .f32⟩
  | .hbm, ⟨81, _⟩ => ⟨S500x8, .f32⟩
  | .hbm, ⟨82, _⟩ => ⟨S500x8, .f32⟩
  | .hbm, ⟨83, _⟩ => ⟨S_, .f32⟩
  | .hbm, ⟨84, _⟩ => ⟨S500x8, .f32⟩
  | .hbm, ⟨85, _⟩ => ⟨S500x8, .f32⟩
  | .hbm, ⟨86, _⟩ => ⟨S500x1, .f32⟩
  | .hbm, ⟨87, _⟩ => ⟨S1x1, .f32⟩
  | .hbm, ⟨88, _⟩ => ⟨S500x1, .f32⟩
  | .hbm, ⟨89, _⟩ => ⟨S500x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_4 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_5 : Ref sig .tc := ⟨.hbm, 53, rfl⟩
abbrev main_v32 : Ref sig .tc := ⟨.hbm, 54, rfl⟩
abbrev main_cst_6 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_7 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_call0_cst : Ref sig .tc := ⟨.hbm, 69, rfl⟩
abbrev main_call0_v0 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_call1_cst : Ref sig .tc := ⟨.hbm, 76, rfl⟩
abbrev main_call1_v0 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_call2_cst : Ref sig .tc := ⟨.hbm, 83, rfl⟩
abbrev main_call2_v0 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S500x64 : S_.BroadcastsInDim S500x64 (![] : Fin 0 → Fin S500x64.rank)
  bcast_S_S500 : S_.BroadcastsInDim S500 (![] : Fin 0 → Fin S500.rank)
  bcast_S500_S500x1_0 : S500.BroadcastsInDim S500x1 (![0] : Fin 1 → Fin S500x1.rank)
  bcast_S500x1_S500x64_0_1 : S500x1.BroadcastsInDim S500x64 (![0, 1] : Fin 2 → Fin S500x64.rank)
  bcast_S32_S1x32_1 : S32.BroadcastsInDim S1x32 (![1] : Fin 1 → Fin S1x32.rank)
  bcast_S1x32_S500x32_0_1 : S1x32.BroadcastsInDim S500x32 (![0, 1] : Fin 2 → Fin S500x32.rank)
  bcast_S_S500x32 : S_.BroadcastsInDim S500x32 (![] : Fin 0 → Fin S500x32.rank)
  bcast_S16_S1x16_1 : S16.BroadcastsInDim S1x16 (![1] : Fin 1 → Fin S1x16.rank)
  bcast_S1x16_S500x16_0_1 : S1x16.BroadcastsInDim S500x16 (![0, 1] : Fin 2 → Fin S500x16.rank)
  bcast_S_S500x16 : S_.BroadcastsInDim S500x16 (![] : Fin 0 → Fin S500x16.rank)
  bcast_S8_S1x8_1 : S8.BroadcastsInDim S1x8 (![1] : Fin 1 → Fin S1x8.rank)
  bcast_S1x8_S500x8_0_1 : S1x8.BroadcastsInDim S500x8 (![0, 1] : Fin 2 → Fin S500x8.rank)
  bcast_S_S500x8 : S_.BroadcastsInDim S500x8 (![] : Fin 0 → Fin S500x8.rank)
  bcast_S1_S1x1_1 : S1.BroadcastsInDim S1x1 (![1] : Fin 1 → Fin S1x1.rank)
  bcast_S1x1_S500x1_0_1 : S1x1.BroadcastsInDim S500x1 (![0, 1] : Fin 2 → Fin S500x1.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x64_S50000x64_1_0_0_1_n_n_wf : DotDims.WF S50000x128 S128x64 S50000x64 [1] [0] [0] [1] [] []
  scatter_S500x64_S50000x1_S50000x64_1_0_0_1_wf : ScatterDims.WF S500x64 S50000x1 S50000x64 [1] [0] [0] 1
  scatter_S500_S50000x1_S50000_n_0_0_1_wf : ScatterDims.WF S500 S50000x1 S50000 [] [0] [0] 1
  dot_S500x64_S64x32_S500x32_1_0_0_1_n_n_wf : DotDims.WF S500x64 S64x32 S500x32 [1] [0] [0] [1] [] []
  dot_S500x32_S32x16_S500x16_1_0_0_1_n_n_wf : DotDims.WF S500x32 S32x16 S500x16 [1] [0] [0] [1] [] []
  dot_S500x16_S16x8_S500x8_1_0_0_1_n_n_wf : DotDims.WF S500x16 S16x8 S500x8 [1] [0] [0] [1] [] []
  dot_S500x8_S8x1_S500x1_1_0_0_1_n_n_wf : DotDims.WF S500x8 S8x1 S500x1 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def scatter_S500x64_S50000x1_S50000x64_1_0_0_1 : ScatterDims S500x64 S50000x1 S50000x64 where
  updateWindowDims := [1]
  insertedWindowDims := [0]
  scatterDimsToOperandDims := [0]
  indexVectorDim := 1
  wf := scatter_S500x64_S50000x1_S50000x64_1_0_0_1_wf
def scatter_S500_S50000x1_S50000_n_0_0_1 : ScatterDims S500 S50000x1 S50000 where
  updateWindowDims := []
  insertedWindowDims := [0]
  scatterDimsToOperandDims := [0]
  indexVectorDim := 1
  wf := scatter_S500_S50000x1_S50000_n_0_0_1_wf
def dot_S500x64_S64x32_S500x32_1_0_0_1_n_n : DotDims S500x64 S64x32 S500x32 where
  lhsContracting := [1]
  rhsContracting := [0]
  lhsNonContracting := [0]
  rhsNonContracting := [1]
  lhsBatch := []
  rhsBatch := []
  wf := dot_S500x64_S64x32_S500x32_1_0_0_1_n_n_wf
def dot_S500x32_S32x16_S500x16_1_0_0_1_n_n : DotDims S500x32 S32x16 S500x16 where
  lhsContracting := [1]
  rhsContracting := [0]
  lhsNonContracting := [0]
  rhsNonContracting := [1]
  lhsBatch := []
  rhsBatch := []
  wf := dot_S500x32_S32x16_S500x16_1_0_0_1_n_n_wf
def dot_S500x16_S16x8_S500x8_1_0_0_1_n_n : DotDims S500x16 S16x8 S500x8 where
  lhsContracting := [1]
  rhsContracting := [0]
  lhsNonContracting := [0]
  rhsNonContracting := [1]
  lhsBatch := []
  rhsBatch := []
  wf := dot_S500x16_S16x8_S500x8_1_0_0_1_n_n_wf
def dot_S500x8_S8x1_S500x1_1_0_0_1_n_n : DotDims S500x8 S8x1 S500x1 where
  lhsContracting := [1]
  rhsContracting := [0]
  lhsNonContracting := [0]
  rhsNonContracting := [1]
  lhsBatch := []
  rhsBatch := []
  wf := dot_S500x8_S8x1_S500x1_1_0_0_1_n_n_wf

class Facts : Prop extends Facts₀ where

variable [Facts]
-- ==== Proof.Spec.lean ====
/-
  The mathematics the two programs share, stated once over the extended reals.

  A node's neighbour sum is divided by its in-degree, floored at one, and pushed through two matrix products with a
  bias; the node features are then summed per graph, divided by the graph's node count, floored at one, and pushed
  through four dense layers, the first three followed by max(·, 0).

  One program divides by the floored count; the other multiplies by the reciprocal of the floored count. On the
  extended reals division by y is multiplication by the inverse of y whenever y is not zero, and a count floored at
  one is at least one, so the two agree at every numerator and every count, finite or not: no finiteness is needed.
-/
import Idealize.ShloMosaic.Lib.ValueIdx
import Idealize.ShloMosaic.PureOps.Ideal.Laws

noncomputable section

open scoped BigOperators

namespace Cert.SageSpec

open Idealize.ShloMosaic Idealize.ShloMosaic.ValueIdx

/-- An a-by-b array of extended reals. -/
abbrev Mat (a b : Nat) : Type := (⟨2, ![a, b]⟩ : Shape).Idx → EReal
/-- A length-a vector of extended reals. -/
abbrev Vc (a : Nat) : Type := (⟨1, ![a]⟩ : Shape).Idx → EReal

/-- The single-precision word of one denotes the real number one. -/
theorem one_f32 : Ideal.ofBits .f32 0x3F800000#32 = 1 := by
  simp [Ideal.ofBits, Ideal.ieee, -EReal.coe_mul]; norm_num

/-- A value floored at one is not zero: it is at least one. -/
theorem max_one_ne_zero (c : EReal) : max c 1 ≠ 0 :=
  ne_of_gt (lt_of_lt_of_le zero_lt_one (le_max_right c 1))

/-- Multiplying by the reciprocal of a count floored at one is dividing by it, for every numerator and every count. -/
theorem mul_recip (a c : EReal) : a * Ideal.div 1 (max c 1) = Ideal.div a (max c 1) := by
  unfold Ideal.div
  rw [if_neg (max_one_ne_zero c), if_neg (max_one_ne_zero c), one_mul]

/-- Each row of `A` times the reciprocal of that row's count floored at one. -/
def meanRows {R K : Nat} (A : Mat R K) (c : Vc R) : Mat R K :=
  fun i => A i * Ideal.div 1 (max (c (ix1 (i 0))) 1)

/-- One dense layer: the matrix product plus a bias repeated down the rows. -/
def affine {M K N : Nat} (H : Mat M K) (W : Mat K N) (b : Vc N) : Mat M N :=
  fun j => (∑ k : Fin K, H (ix2 (j 0) k) * W (ix2 k (j 1))) + b (ix1 (j 1))

/-- max(·, 0), entry by entry. -/
def relu {M N : Nat} (H : Mat M N) : Mat M N := fun j => max (H j) 0

/-- The node update: the mean of the neighbours through one matrix, the node itself through another, plus a bias. -/
def combine {R K N : Nat} (A : Mat R K) (c : Vc R) (X : Mat R K) (Wl : Mat K N) (bl : Vc N) (Wr : Mat K N) : Mat R N :=
  fun j => ((∑ k : Fin K, meanRows A c (ix2 (j 0) k) * Wl (ix2 k (j 1)))
      + ∑ k : Fin K, X (ix2 (j 0) k) * Wr (ix2 k (j 1))) + bl (ix1 (j 1))

/-- The per-graph head: mean over the graph's nodes, then four dense layers, the first three followed by max(·, 0). -/
def head {G D0 D1 D2 D3 D4 : Nat} (gs : Mat G D0) (gc : Vc G) (W0 : Mat D0 D1) (b0 : Vc D1) (W1 : Mat D1 D2) (b1 : Vc D2)
    (W2 : Mat D2 D3) (b2 : Vc D3) (W3 : Mat D3 D4) (b3 : Vc D4) : Mat G D4 :=
  affine (relu (affine (relu (affine (relu (affine (meanRows gs gc) W0 b0)) W1 b1)) W2 b2)) W3 b3

/-- An a-by-1 column as a vector. -/
def colVec {R : Nat} (C : Mat R 1) : Vc R := fun r => C (ix2 (r 0) (0 : Fin 1))

/-- A 1-by-n row as a vector. -/
def rowVec {N : Nat} (B : Mat 1 N) : Vc N := fun j => B (ix2 (0 : Fin 1) (j 0))

/-- The node update of row `r` reads only row `r` of the neighbour sums, of the counts and of the node features: if a
    block's row `p` holds row `r` of each, the block's update at `(p, q)` is the whole array's at `(r, q)`. -/
theorem combine_row {R R' K N : Nat} (A : Mat R K) (c : Vc R) (X : Mat R K) (A' : Mat R' K) (c' : Vc R') (X' : Mat R' K)
    (Wl : Mat K N) (bl : Vc N) (Wr : Mat K N) (p : Fin R') (r : Fin R) (q : Fin N)
    (hA : ∀ k : Fin K, A' (ix2 p k) = A (ix2 r k)) (hc : c' (ix1 p) = c (ix1 r)) (hX : ∀ k : Fin K, X' (ix2 p k) = X (ix2 r k)) :
    combine A' c' X' Wl bl Wr (ix2 p q) = combine A c X Wl bl Wr (ix2 r q) := by
  unfold combine meanRows
  show ((∑ k : Fin K, A' (ix2 p k) * Ideal.div 1 (max (c' (ix1 p)) 1) * Wl (ix2 k q)) + ∑ k : Fin K, X' (ix2 p k) * Wr (ix2 k q)) + bl (ix1 q)
    = ((∑ k : Fin K, A (ix2 r k) * Ideal.div 1 (max (c (ix1 r)) 1) * Wl (ix2 k q)) + ∑ k : Fin K, X (ix2 r k) * Wr (ix2 k q)) + bl (ix1 q)
  rw [hc]
  simp only [hA, hX]

end Cert.SageSpec

end
-- ==== Proof.LibPlainDot.lean ====
/-
  A plain matrix product read at coordinates.

  `DotDims.plain M K N` are the dimension numbers of an `M×K` by `K×N` product: the left operand is contracted on its
  second axis, the right on its first, no batch axis. At the ideal instance such a product, whether it is the kernel's
  `tpu.matmul` into a zero accumulator or the host's `dot_general`, is at the output index `(r, c)` the sum over
  `k : Fin K` of `A (r, k) * B (k, c)` on the extended reals: the same sum in the same order on both sides, so the two
  agree wherever their operands do.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's index at output index `j` and contraction position `k` is `(j 0, k)`. -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl j _).trans hk

/-- The right operand's index at output index `j` and contraction position `k` is `(k, j 1)`. -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single (cr := 0) rfl j _).trans hk
  | ⟨1, _⟩ => rfl

/-- The kernel's product into a zero accumulator, at an output index: the sum over the shared axis. -/
theorem matmul_zero_apply (prec : Option ContractPrecision) (A : FVec Ideal ⟨2, ![M, K]⟩ .f32) (B : FVec Ideal ⟨2, ![K, N]⟩ .f32)
    (j : (⟨2, ![M, N]⟩ : Shape).Idx) :
    FloatOps.matmul (DotDims.plain M K N) prec A B (constant ⟨2, ![M, N]⟩ .f32 0x00000000#32) j
      = ∑ k : Fin K, A (ix2 (j 0) k) * B (ix2 k (j 1)) := by
  rw [Ideal.matmul_constant_zero_apply, ← Equiv.sum_comp (contrEquiv1 (DotDims.plain M K N) K rfl rfl).symm]
  refine Finset.sum_congr rfl fun k _ => ?_
  rw [lhsIdx_eq, rhsIdx_eq]
  rfl

/-- The host's product, at an output index: the same sum. -/
theorem dotGeneral_apply (prec : Option ContractPrecision) (sched : HostSchedule) (A : FVec Ideal ⟨2, ![M, K]⟩ .f32)
    (B : FVec Ideal ⟨2, ![K, N]⟩ .f32) (j : (⟨2, ![M, N]⟩ : Shape).Idx) :
    FloatOps.dotGeneral (DotDims.plain M K N) prec sched A B j = ∑ k : Fin K, A (ix2 (j 0) k) * B (ix2 k (j 1)) := by
  rw [Ideal.dotGeneral_apply, ← Equiv.sum_comp (contrEquiv1 (DotDims.plain M K N) K rfl rfl).symm]
  refine Finset.sum_congr rfl fun k _ => ?_
  rw [lhsIdx_eq, rhsIdx_eq]
  rfl

end Idealize.ShloMosaic.PlainDot

end
-- ==== Proof.LibPlainDotAny.lean ====
/-
  A plain matrix product read at coordinates, at any two operand formats.

  At the ideal instance every float format is the extended reals, so an `M×K` by `K×N` product whose operands were
  first narrowed to another format (a kernel that feeds its matrix unit bf16) is still, at the output index `(r, c)`, the
  sum over `k : Fin K` of `A (r, k) * B (k, c)`: for the kernel's product into a zero accumulator and for the host's
  `dot_general` alike, over any dimension record equal to `DotDims.plain M K N`.
-/
import proofs.«155166_j33028298506662_1_alg».proof.Proof.LibPlainDot

noncomputable section

open scoped BigOperators

namespace Idealize.ShloMosaic.PlainDot

open Idealize.ShloMosaic Idealize.ShloMosaic.ValueIdx

variable (M K N : Nat)

/-- The kernel's product into a zero accumulator, at an output index, whatever the operands' formats. -/
theorem matmul_zero_apply_any {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    FloatOps.matmul (DotDims.plain M K N) prec A B (constant ⟨2, ![M, N]⟩ .f32 0x00000000#32) j
      = ∑ k : Fin K, A (ix2 (j 0) k) * B (ix2 k (j 1)) := by
  rw [Ideal.matmul_constant_zero_apply, ← Equiv.sum_comp (contrEquiv1 (DotDims.plain M K N) K rfl rfl).symm]
  refine Finset.sum_congr rfl fun k _ => ?_
  rw [lhsIdx_eq, rhsIdx_eq]
  rfl

/-- The host's product, at an output index, whatever the operands' formats. -/
theorem dotGeneral_apply_any {φ₁ φ₂ : FTy} (prec : Option ContractPrecision) (sched : HostSchedule)
    (A : FVec Ideal ⟨2, ![M, K]⟩ φ₁) (B : FVec Ideal ⟨2, ![K, N]⟩ φ₂) (j : (⟨2, ![M, N]⟩ : Shape).Idx) :
    FloatOps.dotGeneral (DotDims.plain M K N) prec sched A B j = ∑ k : Fin K, A (ix2 (j 0) k) * B (ix2 k (j 1)) := by
  rw [Ideal.dotGeneral_apply, ← Equiv.sum_comp (contrEquiv1 (DotDims.plain M K N) K rfl rfl).symm]
  refine Finset.sum_congr rfl fun k _ => ?_
  rw [lhsIdx_eq, rhsIdx_eq]
  rfl

end Idealize.ShloMosaic.PlainDot

end
-- ==== Proof.LibKeepdims.lean ====
/-
  Column layouts of a keepdims reduction, read at an index: a length-a vector recast as an [a, 1] column, and an [a, 1]
  column broadcast along the rows of an [a, b] array. (The row forms, [a] → [1, a] and [1, b] → [a, b], are the library's.)
-/
import Idealize.ShloMosaic.Lib.Pipeline.Value
import Idealize.ShloMosaic.Lib.ValueIdx

noncomputable section

namespace Idealize.ShloMosaic.Keepdims

open Idealize.ShloMosaic Idealize.ShloMosaic.ValueIdx

variable {α : Type}

/-- An `[a]` array cast to an `[a, 1]` column reads, at `(i, u)`, the operand at `i`, whatever the unit coordinate `u`:
    both positions are the i-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Keepdims

end
-- ==== Proof.Body.lean ====
/-
  What each kernel body computes from the blocks it loads, as the shared specification in the kernel's own layout: the
  count arrives as a one-column array and each bias as a one-row array; narrowing an operand to bf16 changes nothing
  over the extended reals, and a matrix-unit product into a zero accumulator is the plain sum of products.
-/
import proofs.«155166_j33028298506662_1_alg».proof.Proof.Gen.KernelIdeal.Skeleton
import proofs.«155166_j33028298506662_1_alg».proof.Proof.Spec
import proofs.«155166_j33028298506662_1_alg».proof.Proof.LibPlainDotAny
import proofs.«155166_j33028298506662_1_alg».proof.Proof.LibKeepdims
import Idealize.ShloMosaic.Lib.Pipeline.Value
import Idealize.ShloMosaic.Lib.ValueLayout

noncomputable section

open scoped BigOperators

namespace Cert.KernelIdeal.Body

open Cert.KernelIdeal Cert.KernelIdeal.Gen Cert.SageSpec Idealize.ShloMosaic Idealize.ShloMosaic.ValueIdx

/-! ## The printed dimension records are the plain ones -/

/-- The record of the 2000×128 by 128×64 product: left contracted on its second axis, right on its first, no batch. -/
theorem dot_2000_128_64 : dot_S2000x128_S128x64_S2000x64_1_0_0_1_n_n = DotDims.plain 2000 128 64 := rfl

/-- The record of the 500×64 by 64×32 product. -/
theorem dot_500_64_32 : dot_S500x64_S64x32_S500x32_1_0_0_1_n_n = DotDims.plain 500 64 32 := rfl

/-- The record of the 500×32 by 32×16 product. -/
theorem dot_500_32_16 : dot_S500x32_S32x16_S500x16_1_0_0_1_n_n = DotDims.plain 500 32 16 := rfl

/-- The record of the 500×16 by 16×8 product. -/
theorem dot_500_16_8 : dot_S500x16_S16x8_S500x8_1_0_0_1_n_n = DotDims.plain 500 16 8 := rfl

/-- The record of the 500×8 by 8×1 product. -/
theorem dot_500_8_1 : dot_S500x8_S8x1_S500x1_1_0_0_1_n_n = DotDims.plain 500 8 1 := rfl

/-! ## One step of a body, at any sizes -/

section Steps

variable {M K N : Nat}

/-- The mean step: the reciprocal of the count column floored at one, broadcast along each row and multiplied in, is
    each row times the reciprocal of its floored count. The word 0x3F800000 denotes one. -/
theorem kernel_meanRows (A : FVec Ideal ⟨2, ![M, K]⟩ .f32) (c : FVec Ideal ⟨2, ![M, 1]⟩ .f32)
    (hb : (⟨2, ![M, 1]⟩ : Shape).Broadcasts ⟨2, ![M, K]⟩) :
    mulf A (broadcastTo ⟨2, ![M, K]⟩
        (divf (broadcast ⟨2, ![M, 1]⟩ (Scalar.ofBits (F := Ideal) .f32 0x3F800000#32))
          (maximumf c (broadcast ⟨2, ![M, 1]⟩ (Scalar.ofBits (F := Ideal) .f32 0x3F800000#32)))) hb)
      = meanRows A (colVec c) := by
  funext j
  obtain ⟨p, q, rfl⟩ : ∃ (p : Fin M) (q : Fin K), j = ix2 p q := ⟨j 0, j 1, eq_ix2 j⟩
  rw [mulf_apply, Keepdims.broadcastTo_a1_ab_apply]
  show A (ix2 p q) * Ideal.div (Ideal.ofBits .f32 0x3F800000#32) (max (c (ix2 p (0 : Fin 1))) (Ideal.ofBits .f32 0x3F800000#32))
    = A (ix2 p q) * Ideal.div 1 (max (c (ix2 p (0 : Fin 1))) 1)
  rw [one_f32]

/-- max against the broadcast zero word is max(·, 0), entry by entry. -/
theorem kernel_relu (H : FVec Ideal ⟨2, ![M, N]⟩ .f32) :
    maximumf H (broadcast ⟨2, ![M, N]⟩ (Scalar.ofBits (F := Ideal) .f32 0x00000000#32)) = relu H := by
  funext j
  show max (H j) (Ideal.ofBits .f32 0x00000000#32) = max (H j) 0
  rw [Ideal.ofBits_zero_f32]

/-- The product of two operands narrowed to bf16, into a zero accumulator, read at an index: narrowing changes nothing
    over the extended reals, so it is the plain sum of products of the operands themselves. -/
theorem kernel_dot_apply (d : DotDims ⟨2, ![M, K]⟩ ⟨2, ![K, N]⟩ ⟨2, ![M, N]⟩) (hd : d = DotDims.plain M K N)
    (H : FVec Ideal ⟨2, ![M, K]⟩ .f32) (W : FVec Ideal ⟨2, ![K, N]⟩ .f32)
    (h₁ : FTy.bits .bf16 < FTy.bits .f32) (h₂ : FTy.bits .bf16 < FTy.bits .f32) (p : Fin M) (q : Fin N) :
    matmul d none (truncf .bf16 H h₁) (truncf .bf16 W h₂) (constant (F := Ideal) ⟨2, ![M, N]⟩ .f32 0x00000000#32) (ix2 p q)
      = ∑ k : Fin K, H (ix2 p k) * W (ix2 k q) := by
  subst hd
  exact PlainDot.matmul_zero_apply_any M K N none (truncf .bf16 H h₁) (truncf .bf16 W h₂) (ix2 p q)

/-- One dense layer as a body computes it: the product above plus a one-row bias broadcast down the rows. -/
theorem kernel_affine (d : DotDims ⟨2, ![M, K]⟩ ⟨2, ![K, N]⟩ ⟨2, ![M, N]⟩) (hd : d = DotDims.plain M K N)
    (H : FVec Ideal ⟨2, ![M, K]⟩ .f32) (W : FVec Ideal ⟨2, ![K, N]⟩ .f32) (brow : FVec Ideal ⟨2, ![1, N]⟩ .f32)
    (h₁ : FTy.bits .bf16 < FTy.bits .f32) (h₂ : FTy.bits .bf16 < FTy.bits .f32)
    (hb : (⟨2, ![1, N]⟩ : Shape).Broadcasts ⟨2, ![M, N]⟩) :
    addf (matmul d none (truncf .bf16 H h₁) (truncf .bf16 W h₂) (constant (F := Ideal) ⟨2, ![M, N]⟩ .f32 0x00000000#32))
        (broadcastTo ⟨2, ![M, N]⟩ brow hb)
      = affine H W (rowVec brow) := by
  funext j
  obtain ⟨p, q, rfl⟩ : ∃ (p : Fin M) (q : Fin N), j = ix2 p q := ⟨j 0, j 1, eq_ix2 j⟩
  rw [addf_apply, kernel_dot_apply d hd, broadcastTo_1b_ab_apply]
  rfl

/-- The node update as the first body computes it: the mean of the neighbours through one product, the node itself
    through another, the two added, plus the bias row. -/
theorem kernel_combine (d : DotDims ⟨2, ![M, K]⟩ ⟨2, ![K, N]⟩ ⟨2, ![M, N]⟩) (hd : d = DotDims.plain M K N)
    (A X : FVec Ideal ⟨2, ![M, K]⟩ .f32) (c : Vc M) (Wl Wr : FVec Ideal ⟨2, ![K, N]⟩ .f32) (brow : FVec Ideal ⟨2, ![1, N]⟩ .f32)
    (h₁ h₂ h₃ h₄ : FTy.bits .bf16 < FTy.bits .f32) (hb : (⟨2, ![1, N]⟩ : Shape).Broadcasts ⟨2, ![M, N]⟩) :
    addf (addf
          (matmul d none (truncf .bf16 (meanRows A c) h₁) (truncf .bf16 Wl h₂) (constant (F := Ideal) ⟨2, ![M, N]⟩ .f32 0x00000000#32))
          (matmul d none (truncf .bf16 X h₃) (truncf .bf16 Wr h₄) (constant (F := Ideal) ⟨2, ![M, N]⟩ .f32 0x00000000#32)))
        (broadcastTo ⟨2, ![M, N]⟩ brow hb)
      = combine A c X Wl (rowVec brow) Wr := by
  funext j
  obtain ⟨p, q, rfl⟩ : ∃ (p : Fin M) (q : Fin N), j = ix2 p q := ⟨j 0, j 1, eq_ix2 j⟩
  rw [addf_apply, addf_apply, kernel_dot_apply d hd, kernel_dot_apply d hd, broadcastTo_1b_ab_apply]
  rfl

end Steps

/-- The first body's stored value: the node update of the block's rows. -/
theorem pay0_eq (v0 : Vec Ideal S2000x1 .f32) (v6 : Vec Ideal S2000x128 .f32) (v10 : Vec Ideal S128x64 .f32)
    (v12 : Vec Ideal S128x64 .f32) (v15 : Vec Ideal S2000x128 .f32) (v20 : Vec Ideal S1x64 .f32) :
    k0_pay1 (F := Ideal) v0 v6 v10 v12 v15 v20 = combine v6 (colVec v0) v15 v10 (rowVec v20) v12 := by
  unfold k0_pay1
  simp only [shapeCast_self]
  rw [kernel_meanRows]
  exact kernel_combine _ dot_2000_128_64 v6 v15 (colVec v0) v10 v12 v20 _ _ _ _ _

/-- The second body's stored value: the per-graph head of the pooled features. -/
theorem pay1_eq (v0 : Vec Ideal S500x1 .f32) (v6 : Vec Ideal S500x64 .f32) (v10 : Vec Ideal S64x32 .f32)
    (v14 : Vec Ideal S1x32 .f32) (v20 : Vec Ideal S32x16 .f32) (v24 : Vec Ideal S1x16 .f32) (v30 : Vec Ideal S16x8 .f32)
    (v34 : Vec Ideal S1x8 .f32) (v40 : Vec Ideal S8x1 .f32) (v44 : Vec Ideal S1x1 .f32) :
    k1_pay1 (F := Ideal) (k1_pay2 v0 v6 v10 v14 v20 v24 v30) (k1_pay3 v34) v40 v44
      = head v6 (colVec v0) v10 (rowVec v14) v20 (rowVec v24) v30 (rowVec v34) v40 (rowVec v44) := by
  unfold k1_pay1 k1_pay2 k1_pay3
  simp only [shapeCast_self]
  rw [kernel_meanRows, kernel_affine _ dot_500_64_32, kernel_relu, kernel_affine _ dot_500_32_16, kernel_relu,
    kernel_affine _ dot_500_16_8, kernel_relu, kernel_affine _ dot_500_8_1]
  rfl

end Cert.KernelIdeal.Body

end
-- ==== Proof.Region0Value.lean ====
/-
  The first region walks the node axis in 25 blocks of 2000 rows. Its weight and bias windows are whole arrays; its
  neighbour-sum, count and node-feature windows and its result window move together, block t holding rows
  2000·t … 2000·t + 1999. The node update of a row reads only that row of the row-indexed inputs, so what point t
  writes back is block t of ONE whole-array function of the arrays the region finds, and the 25 blocks tile the
  result array: it ends holding that function.
-/
import proofs.«155166_j33028298506662_1_alg».proof.Proof.Gen.KernelIdeal.Frame
import proofs.«155166_j33028298506662_1_alg».proof.Proof.Body
import proofs.«155166_j33028298506662_1_alg».proof.Proof.Spec
import Idealize.ShloMosaic.Lib.Pipeline.Value

set_option maxRecDepth 16384

noncomputable section

namespace Cert.KernelIdeal.Region0

open Cert.KernelIdeal Cert.KernelIdeal.Gen Cert.SageSpec Idealize.ShloMosaic Idealize.ShloMosaic.ValueIdx Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 25 grid points: the row-indexed windows and the result window sit at block (t, 0),
    the weight and bias windows at block (0, 0). -/
theorem idx0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (∀ a : Fin 2, win0_3.index t a = 0) ∧ (∀ a : Fin 2, win0_4.index t a = 0) ∧ (∀ a : Fin 2, win0_5.index t a = 0)
    ∧ (win0_6.index t (0 : Fin 2) = t.val ∧ win0_6.index t (1 : Fin 2) = 0) :=
  (by decide +kernel : ∀ t : Fin grid0.N, _)

theorem t_lt (t : Fin cfg0.N) : t.val < 25 := Nat.lt_of_lt_of_eq t.isLt N_0

/-- Row p of block t is row 2000·t + p of the array. -/
def row (t : Fin cfg0.N) (p : Fin 2000) : Fin 50000 := ⟨t.val * 2000 + p.val, by have := t_lt t; have := p.isLt; omega⟩

/-- The first weight window's one block is its whole array. -/
theorem iblk0_3 (c : Dev nD) (t : Fin cfg0.N) : iblk0 V c 3 t = V c main_arg3 := by
  funext y
  show V c main_arg3 (((cfg0.win 3).blk t).view.emb y) = V c main_arg3 y
  have e := (idx0 t).2.2.2.1
  refine congrArg _ (funext fun a => Fin.ext ?_)
  match a with
  | ⟨0, _⟩ => show win0_3.index t (0 : Fin 2) * 128 + 1 * (y 0).val = (y 0).val; rw [e 0]; omega
  | ⟨1, _⟩ => show win0_3.index t (1 : Fin 2) * 64 + 1 * (y 1).val = (y 1).val; rw [e 1]; omega

/-- The bias-row window's one block is its whole array. -/
theorem iblk0_4 (c : Dev nD) (t : Fin cfg0.N) : iblk0 V c 4 t = V c main_v19 := by
  funext y
  show V c main_v19 (((cfg0.win 4).blk t).view.emb y) = V c main_v19 y
  have e := (idx0 t).2.2.2.2.1
  refine congrArg _ (funext fun a => Fin.ext ?_)
  match a with
  | ⟨0, _⟩ => show win0_4.index t (0 : Fin 2) * 1 + 1 * (y 0).val = (y 0).val; rw [e 0]; omega
  | ⟨1, _⟩ => show win0_4.index t (1 : Fin 2) * 64 + 1 * (y 1).val = (y 1).val; rw [e 1]; omega

/-- The second weight window's one block is its whole array. -/
theorem iblk0_5 (c : Dev nD) (t : Fin cfg0.N) : iblk0 V c 5 t = V c main_arg5 := by
  funext y
  show V c main_arg5 (((cfg0.win 5).blk t).view.emb y) = V c main_arg5 y
  have e := (idx0 t).2.2.2.2.2.1
  refine congrArg _ (funext fun a => Fin.ext ?_)
  match a with
  | ⟨0, _⟩ => show win0_5.index t (0 : Fin 2) * 128 + 1 * (y 0).val = (y 0).val; rw [e 0]; omega
  | ⟨1, _⟩ => show win0_5.index t (1 : Fin 2) * 64 + 1 * (y 1).val = (y 1).val; rw [e 1]; omega

/-- Block t of the neighbour sums at (p, k) is the array at (2000·t + p, k). -/
theorem iblk0_0_apply (c : Dev nD) (t : Fin cfg0.N) (p : Fin 2000) (k : Fin 128) :
    iblk0 V c 0 t (ix2 p k) = V c main_v13 (ix2 (row t p) k) := by
  show V c main_v13 (((cfg0.win 0).blk t).view.emb (ix2 p k)) = V c main_v13 (ix2 (row t p) k)
  have e := (idx0 t).1
  refine congrArg _ (funext fun a => Fin.ext ?_)
  match a with
  | ⟨0, _⟩ => show win0_0.index t (0 : Fin 2) * 2000 + 1 * p.val = t.val * 2000 + p.val; rw [e.1]; omega
  | ⟨1, _⟩ => show win0_0.index t (1 : Fin 2) * 128 + 1 * k.val = k.val; rw [e.2]; omega

/-- Block t of the count column at (p, 0) is the array at (2000·t + p, 0). -/
theorem iblk0_1_apply (c : Dev nD) (t : Fin cfg0.N) (p : Fin 2000) :
    iblk0 V c 1 t (ix2 p (0 : Fin 1)) = V c main_v18 (ix2 (row t p) (0 : Fin 1)) := by
  show V c main_v18 (((cfg0.win 1).blk t).view.emb (ix2 p (0 : Fin 1))) = V c main_v18 (ix2 (row t p) (0 : Fin 1))
  have e := (idx0 t).2.1
  refine congrArg _ (funext fun a => Fin.ext ?_)
  match a with
  | ⟨0, _⟩ => show win0_1.index t (0 : Fin 2) * 2000 + 1 * p.val = t.val * 2000 + p.val; rw [e.1]; omega
  | ⟨1, _⟩ => show win0_1.index t (1 : Fin 2) * 1 + 1 * 0 = 0; rw [e.2]

/-- Block t of the node features at (p, k) is the array at (2000·t + p, k). -/
theorem iblk0_2_apply (c : Dev nD) (t : Fin cfg0.N) (p : Fin 2000) (k : Fin 128) :
    iblk0 V c 2 t (ix2 p k) = V c main_arg0 (ix2 (row t p) k) := by
  show V c main_arg0 (((cfg0.win 2).blk t).view.emb (ix2 p k)) = V c main_arg0 (ix2 (row t p) k)
  have e := (idx0 t).2.2.1
  refine congrArg _ (funext fun a => Fin.ext ?_)
  match a with
  | ⟨0, _⟩ => show win0_2.index t (0 : Fin 2) * 2000 + 1 * p.val = t.val * 2000 + p.val; rw [e.1]; omega
  | ⟨1, _⟩ => show win0_2.index t (1 : Fin 2) * 128 + 1 * k.val = k.val; rw [e.2]; omega

/-- What the region leaves in its result array, as a function of the arrays it finds: the node update. -/
def G0 (c : Dev nD) : S50000x64.Idx → EReal :=
  combine (V c main_v13) (colVec (V c main_v18)) (V c main_arg0) (V c main_arg3) (rowVec (V c main_v19)) (V c main_arg5)

/-- What point t writes back is block t of `G0`. -/
theorem flushed_eq (c : Dev nD) (t : Fin cfg0.N) :
    (dat0 (F := Ideal) V c).flushed 6 t = ((cfg0.win 6).blk t).view.read (Elt Ideal) (G0 V c) := by
  show (cfg0.win 6).cut (grid0.coords t) ((dat0 V c).after 6 t) = _
  rw [after0_6]
  unfold out0_6
  rw [View.canon_unit_zero hz]
  simp only [View.ld_unit_zero (S := S2000x1) hz, View.ld_unit_zero (S := S2000x128) hz, View.ld_unit_zero (S := S128x64) hz,
    View.ld_unit_zero (S := S1x64) hz]
  rw [iblk0_3 V c t, iblk0_4 V c t, iblk0_5 V c t]
  rw [Body.pay0_eq (iblk0 V c 1 t) (iblk0 V c 0 t) (V c main_arg3) (V c main_arg5) (iblk0 V c 2 t) (V c main_v19)]
  funext y
  obtain ⟨p, q, rfl⟩ : ∃ (p : Fin 2000) (q : Fin 64), y = ix2 p q := ⟨y 0, y 1, eq_ix2 y⟩
  have hemb : ((cfg0.win 6).blk t).view.emb (ix2 p q) = ix2 (row t p) q := by
    have e := (idx0 t).2.2.2.2.2.2
    funext a; apply Fin.ext
    match a with
    | ⟨0, _⟩ => show win0_6.index t (0 : Fin 2) * 2000 + 1 * p.val = t.val * 2000 + p.val; rw [e.1]; omega
    | ⟨1, _⟩ => show win0_6.index t (1 : Fin 2) * 64 + 1 * q.val = q.val; rw [e.2]; omega
  show combine (iblk0 V c 0 t) (colVec (iblk0 V c 1 t)) (iblk0 V c 2 t) (V c main_arg3) (rowVec (V c main_v19)) (V c main_arg5) (ix2 p q)
    = G0 V c (((cfg0.win 6).blk t).view.emb (ix2 p q))
  rw [hemb]
  exact combine_row (V c main_v13) (colVec (V c main_v18)) (V c main_arg0) (iblk0 V c 0 t) (colVec (iblk0 V c 1 t)) (iblk0 V c 2 t)
    (V c main_arg3) (rowVec (V c main_v19)) (V c main_arg5) p (row t p) q
    (fun k => iblk0_0_apply V c t p k) (iblk0_1_apply V c t p) (fun k => iblk0_2_apply V c t p k)

/-- Every row of the result array lies in the block of the point that is its row number divided by 2000. -/
theorem cover (i : S50000x64.Idx) :
    ∃ t : Fin cfg0.N, (cfg0.win 6).flush t = true ∧ i ∈ ((cfg0.win 6).blk t).view.set := by
  have h0 : (i 0).val < 50000 := (i 0).isLt
  have h1 : (i 1).val < 64 := (i 1).isLt
  let t : Fin cfg0.N := ⟨(i 0).val / 2000, Nat.lt_of_lt_of_eq (by omega : (i 0).val / 2000 < 25) N_0.symm⟩
  refine ⟨t, flush0_6 t, ?_⟩
  show i ∈ ((View.whole main_v20).slice (win0_6.rect t)).set
  rw [View.set_slice_whole, Rect.mem_set_unit]
  have e := (idx0 t).2.2.2.2.2.2
  have ht : t.val = (i 0).val / 2000 := rfl
  intro a
  match a with
  | ⟨0, _⟩ =>
    show win0_6.index t (0 : Fin 2) * 2000 ≤ (i 0).val ∧ (i 0).val < win0_6.index t (0 : Fin 2) * 2000 + 2000
    rw [e.1, ht]; omega
  | ⟨1, _⟩ =>
    show win0_6.index t (1 : Fin 2) * 64 ≤ (i 1).val ∧ (i 1).val < win0_6.index t (1 : Fin 2) * 64 + 64
    rw [e.2]; omega

/-- The result array after the region: the node update of the arrays the region finds. -/
theorem final0 (c : Dev nD) : (dat0 (F := Ideal) V c).arrAt 6 cfg0.N = G0 V c :=
  (dat0 (F := Ideal) V c).arrAt_eq_of_cover 6 (G0 V c) (fun t _ => flushed_eq V c t) (cover)

end Cert.KernelIdeal.Region0

end
-- ==== Proof.Region1Value.lean ====
/-
  The second region has one grid point and each of its windows' blocks is the whole array, so what the region leaves in
  its result array is the body's value at the arrays as the region finds them: the per-graph head of the pooled
  features, the count column and the four weight and bias-row pairs.
-/
import proofs.«155166_j33028298506662_1_alg».proof.Proof.Gen.KernelIdeal.Frame
import proofs.«155166_j33028298506662_1_alg».proof.Proof.Body
import proofs.«155166_j33028298506662_1_alg».proof.Proof.Spec
import Idealize.ShloMosaic.Lib.Pipeline.Value

set_option maxRecDepth 16384

noncomputable section

namespace Cert.KernelIdeal.Region1

open Cert.KernelIdeal Cert.KernelIdeal.Gen Cert.SageSpec Idealize.ShloMosaic Idealize.ShloMosaic.ValueIdx Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Every index map of the region sends its one grid point to block (0, 0). -/
theorem idx1 : ∀ t : Fin cfg1.N,
    (∀ a : Fin 2, win1_0.index t a = 0) ∧ (∀ a : Fin 2, win1_1.index t a = 0) ∧ (∀ a : Fin 2, win1_2.index t a = 0)
    ∧ (∀ a : Fin 2, win1_3.index t a = 0) ∧ (∀ a : Fin 2, win1_4.index t a = 0) ∧ (∀ a : Fin 2, win1_5.index t a = 0)
    ∧ (∀ a : Fin 2, win1_6.index t a = 0) ∧ (∀ a : Fin 2, win1_7.index t a = 0) ∧ (∀ a : Fin 2, win1_8.index t a = 0)
    ∧ (∀ a : Fin 2, win1_9.index t a = 0) ∧ (∀ a : Fin 2, win1_10.index t a = 0) :=
  (by decide +kernel : ∀ t : Fin grid1.N, _)

/-- Window 0's one block is its whole array. -/
theorem iblk1_0 (c : Dev nD) (t : Fin cfg1.N) : iblk1 V c 0 t = V c main_v23 := by
  funext y
  show V c main_v23 (((cfg1.win 0).blk t).view.emb y) = V c main_v23 y
  have e := (idx1 t).1
  refine congrArg _ (funext fun a => Fin.ext ?_)
  match a with
  | ⟨0, _⟩ => show win1_0.index t (0 : Fin 2) * 500 + 1 * (y 0).val = (y 0).val; rw [e 0]; omega
  | ⟨1, _⟩ => show win1_0.index t (1 : Fin 2) * 64 + 1 * (y 1).val = (y 1).val; rw [e 1]; omega

/-- Window 1's one block is its whole array. -/
theorem iblk1_1 (c : Dev nD) (t : Fin cfg1.N) : iblk1 V c 1 t = V c main_v28 := by
  funext y
  show V c main_v28 (((cfg1.win 1).blk t).view.emb y) = V c main_v28 y
  have e := (idx1 t).2.1
  refine congrArg _ (funext fun a => Fin.ext ?_)
  match a with
  | ⟨0, _⟩ => show win1_1.index t (0 : Fin 2) * 500 + 1 * (y 0).val = (y 0).val; rw [e 0]; omega
  | ⟨1, _⟩ => show win1_1.index t (1 : Fin 2) * 1 + 1 * (y 1).val = (y 1).val; rw [e 1]; omega

/-- Window 2's one block is its whole array. -/
theorem iblk1_2 (c : Dev nD) (t : Fin cfg1.N) : iblk1 V c 2 t = V c main_arg6 := by
  funext y
  show V c main_arg6 (((cfg1.win 2).blk t).view.emb y) = V c main_arg6 y
  have e := (idx1 t).2.2.1
  refine congrArg _ (funext fun a => Fin.ext ?_)
  match a with
  | ⟨0, _⟩ => show win1_2.index t (0 : Fin 2) * 64 + 1 * (y 0).val = (y 0).val; rw [e 0]; omega
  | ⟨1, _⟩ => show win1_2.index t (1 : Fin 2) * 32 + 1 * (y 1).val = (y 1).val; rw [e 1]; omega

/-- Window 3's one block is its whole array. -/
theorem iblk1_3 (c : Dev nD) (t : Fin cfg1.N) : iblk1 V c 3 t = V c main_v29 := by
  funext y
  show V c main_v29 (((cfg1.win 3).blk t).view.emb y) = V c main_v29 y
  have e := (idx1 t).2.2.2.1
  refine congrArg _ (funext fun a => Fin.ext ?_)
  match a with
  | ⟨0, _⟩ => show win1_3.index t (0 : Fin 2) * 1 + 1 * (y 0).val = (y 0).val; rw [e 0]; omega
  | ⟨1, _⟩ => show win1_3.index t (1 : Fin 2) * 32 + 1 * (y 1).val = (y 1).val; rw [e 1]; omega

/-- Window 4's one block is its whole array. -/
theorem iblk1_4 (c : Dev nD) (t : Fin cfg1.N) : iblk1 V c 4 t = V c main_arg8 := by
  funext y
  show V c main_arg8 (((cfg1.win 4).blk t).view.emb y) = V c main_arg8 y
  have e := (idx1 t).2.2.2.2.1
  refine congrArg _ (funext fun a => Fin.ext ?_)
  match a with
  | ⟨0, _⟩ => show win1_4.index t (0 : Fin 2) * 32 + 1 * (y 0).val = (y 0).val; rw [e 0]; omega
  | ⟨1, _⟩ => show win1_4.index t (1 : Fin 2) * 16 + 1 * (y 1).val = (y 1).val; rw [e 1]; omega

/-- Window 5's one block is its whole array. -/
theorem iblk1_5 (c : Dev nD) (t : Fin cfg1.N) : iblk1 V c 5 t = V c main_v30 := by
  funext y
  show V c main_v30 (((cfg1.win 5).blk t).view.emb y) = V c main_v30 y
  have e := (idx1 t).2.2.2.2.2.1
  refine congrArg _ (funext fun a => Fin.ext ?_)
  match a with
  | ⟨0, _⟩ => show win1_5.index t (0 : Fin 2) * 1 + 1 * (y 0).val = (y 0).val; rw [e 0]; omega
  | ⟨1, _⟩ => show win1_5.index t (1 : Fin 2) * 16 + 1 * (y 1).val = (y 1).val; rw [e 1]; omega

/-- Window 6's one block is its whole array. -/
theorem iblk1_6 (c : Dev nD) (t : Fin cfg1.N) : iblk1 V c 6 t = V c main_arg10 := by
  funext y
  show V c main_arg10 (((cfg1.win 6).blk t).view.emb y) = V c main_arg10 y
  have e := (idx1 t).2.2.2.2.2.2.1
  refine congrArg _ (funext fun a => Fin.ext ?_)
  match a with
  | ⟨0, _⟩ => show win1_6.index t (0 : Fin 2) * 16 + 1 * (y 0).val = (y 0).val; rw [e 0]; omega
  | ⟨1, _⟩ => show win1_6.index t (1 : Fin 2) * 8 + 1 * (y 1).val = (y 1).val; rw [e 1]; omega

/-- Window 7's one block is its whole array. -/
theorem iblk1_7 (c : Dev nD) (t : Fin cfg1.N) : iblk1 V c 7 t = V c main_v31 := by
  funext y
  show V c main_v31 (((cfg1.win 7).blk t).view.emb y) = V c main_v31 y
  have e := (idx1 t).2.2.2.2.2.2.2.1
  refine congrArg _ (funext fun a => Fin.ext ?_)
  match a with
  | ⟨0, _⟩ => show win1_7.index t (0 : Fin 2) * 1 + 1 * (y 0).val = (y 0).val; rw [e 0]; omega
  | ⟨1, _⟩ => show win1_7.index t (1 : Fin 2) * 8 + 1 * (y 1).val = (y 1).val; rw [e 1]; omega

/-- Window 8's one block is its whole array. -/
theorem iblk1_8 (c : Dev nD) (t : Fin cfg1.N) : iblk1 V c 8 t = V c main_arg12 := by
  funext y
  show V c main_arg12 (((cfg1.win 8).blk t).view.emb y) = V c main_arg12 y
  have e := (idx1 t).2.2.2.2.2.2.2.2.1
  refine congrArg _ (funext fun a => Fin.ext ?_)
  match a with
  | ⟨0, _⟩ => show win1_8.index t (0 : Fin 2) * 8 + 1 * (y 0).val = (y 0).val; rw [e 0]; omega
  | ⟨1, _⟩ => show win1_8.index t (1 : Fin 2) * 1 + 1 * (y 1).val = (y 1).val; rw [e 1]; omega

/-- Window 9's one block is its whole array. -/
theorem iblk1_9 (c : Dev nD) (t : Fin cfg1.N) : iblk1 V c 9 t = V c main_v32 := by
  funext y
  show V c main_v32 (((cfg1.win 9).blk t).view.emb y) = V c main_v32 y
  have e := (idx1 t).2.2.2.2.2.2.2.2.2.1
  refine congrArg _ (funext fun a => Fin.ext ?_)
  match a with
  | ⟨0, _⟩ => show win1_9.index t (0 : Fin 2) * 1 + 1 * (y 0).val = (y 0).val; rw [e 0]; omega
  | ⟨1, _⟩ => show win1_9.index t (1 : Fin 2) * 1 + 1 * (y 1).val = (y 1).val; rw [e 1]; omega

/-- What the region leaves in its result array, as a function of the arrays it finds. -/
def G1 (c : Dev nD) : S500x1.Idx → EReal :=
  head (V c main_v23) (colVec (V c main_v28)) (V c main_arg6) (rowVec (V c main_v29)) (V c main_arg8) (rowVec (V c main_v30))
    (V c main_arg10) (rowVec (V c main_v31)) (V c main_arg12) (rowVec (V c main_v32))

/-- What the one grid point writes back is the whole of `G1`. -/
theorem flushed_eq (c : Dev nD) (t : Fin cfg1.N) :
    (dat1 (F := Ideal) V c).flushed 10 t = ((cfg1.win 10).blk t).view.read (Elt Ideal) (G1 V c) := by
  show (cfg1.win 10).cut (grid1.coords t) ((dat1 V c).after 10 t) = _
  rw [after1_10]
  unfold out1_10
  rw [View.canon_unit_zero hz]
  simp only [View.ld_unit_zero (S := S500x1) hz, View.ld_unit_zero (S := S500x64) hz, View.ld_unit_zero (S := S64x32) hz,
    View.ld_unit_zero (S := S1x32) hz, View.ld_unit_zero (S := S32x16) hz, View.ld_unit_zero (S := S1x16) hz,
    View.ld_unit_zero (S := S16x8) hz, View.ld_unit_zero (S := S1x8) hz, View.ld_unit_zero (S := S8x1) hz, View.ld_unit_zero (S := S1x1) hz]
  rw [iblk1_0 V c t, iblk1_1 V c t, iblk1_2 V c t, iblk1_3 V c t, iblk1_4 V c t, iblk1_5 V c t, iblk1_6 V c t, iblk1_7 V c t,
    iblk1_8 V c t, iblk1_9 V c t]
  rw [Body.pay1_eq (V c main_v28) (V c main_v23) (V c main_arg6) (V c main_v29) (V c main_arg8) (V c main_v30) (V c main_arg10)
    (V c main_v31) (V c main_arg12) (V c main_v32)]
  funext y
  show G1 V c y = G1 V c (((cfg1.win 10).blk t).view.emb y)
  have e := (idx1 t).2.2.2.2.2.2.2.2.2.2
  refine congrArg _ (funext fun a => Fin.ext ?_)
  match a with
  | ⟨0, _⟩ => show (y 0).val = win1_10.index t (0 : Fin 2) * 500 + 1 * (y 0).val; rw [e 0]; omega
  | ⟨1, _⟩ => show (y 1).val = win1_10.index t (1 : Fin 2) * 1 + 1 * (y 1).val; rw [e 1]; omega

/-- An index of the result array is in the one point's block: the block is the whole array. -/
theorem cover (i : S500x1.Idx) :
    ∃ t : Fin cfg1.N, (cfg1.win 10).flush t = true ∧ i ∈ ((cfg1.win 10).blk t).view.set := by
  refine ⟨t1_0, flush1_10 t1_0, ?_⟩
  show i ∈ ((View.whole main_v33).slice (win1_10.rect t1_0)).set
  rw [View.set_slice_whole, Rect.mem_set_unit]
  have e := (idx1 t1_0).2.2.2.2.2.2.2.2.2.2
  intro a
  match a with
  | ⟨0, _⟩ =>
    show win1_10.index t1_0 (0 : Fin 2) * 500 ≤ (i 0).val ∧ (i 0).val < win1_10.index t1_0 (0 : Fin 2) * 500 + 500
    have h : (i 0).val < 500 := (i 0).isLt
    rw [e 0]; omega
  | ⟨1, _⟩ =>
    show win1_10.index t1_0 (1 : Fin 2) * 1 ≤ (i 1).val ∧ (i 1).val < win1_10.index t1_0 (1 : Fin 2) * 1 + 1
    have h : (i 1).val < 1 := (i 1).isLt
    rw [e 1]; omega

/-- The result array after the region: the head of the arrays the region finds. -/
theorem final1 (c : Dev nD) : (dat1 (F := Ideal) V c).arrAt 10 cfg1.N = G1 V c :=
  (dat1 (F := Ideal) V c).arrAt_eq_of_cover 10 (G1 V c) (fun t _ => flushed_eq V c t) (cover)

end Cert.KernelIdeal.Region1

end
-- ==== Proof.HostReads.lean ====
/-
  What the host operations around the two regions leave in the buffers the regions read. The gather of source rows and
  the four scatter-adds are carried as named functions of the arguments and are never opened: both programs apply
  the same ones.
-/
import proofs.«155166_j33028298506662_1_alg».proof.Proof.Gen.KernelIdeal.Frame
import Idealize.ShloMosaic.Lib.StableHlo.Run
import Idealize.ShloMosaic.PureOps.Ideal.Laws

set_option maxRecDepth 16384

noncomputable section

namespace Cert.KernelIdeal.HostReads

open Cert.KernelIdeal Cert.KernelIdeal.Gen Idealize.ShloMosaic Idealize.ShloMosaic.TcCoe Idealize.SL.Sem Idealize.ShloMosaic.StableHlo

/-- The edges' source node numbers: row 0 of the edge list. -/
def srcIdx (ei : IVec S2x600000 32) : IVec S600000 32 :=
  shapeCast S600000 (extractStridedSlice S1x600000 ![0, 0] ei slices_S2x600000_S1x600000_0_0) shapeCasts_S1x600000_S600000

/-- The edges' target node numbers: row 1 of the edge list. -/
def dstIdx (ei : IVec S2x600000 32) : IVec S600000 32 :=
  shapeCast S600000 (extractStridedSlice S1x600000 ![1, 0] ei slices_S2x600000_S1x600000_1_0) shapeCasts_S1x600000_S600000

/-- The source numbers with a negative one counted from the end. -/
def srcNorm (ei : IVec S2x600000 32) : IVec S600000 32 :=
  select (cmpi .slt (srcIdx ei) (broadcastInDim S600000 ![] bcast_S_S600000 (constantI S_ 32 0#32)))
    (addi (srcIdx ei) (broadcastInDim S600000 ![] bcast_S_S600000 (constantI S_ 32 50000#32))) (srcIdx ei)

/-- The neighbour sums: the source rows gathered and added up per target node. -/
def aggK (x : FVec Ideal S50000x128 .f32) (ei : IVec S2x600000 32) : FVec Ideal S50000x128 .f32 :=
  Host.scatterAdd scatter_S50000x128_S600000x1_S600000x128_1_0_0_1
    (broadcastInDim S50000x128 ![] bcast_S_S50000x128 (constant S_ .f32 0x00000000#32))
    (broadcastInDim S600000x1 ![0] bcast_S600000_S600000x1_0 (dstIdx ei))
    (Host.gather gather_S50000x128_S600000x1_S600000x128_1_0_n_n_0_1_1128 x
      (broadcastInDim S600000x1 ![0] bcast_S600000_S600000x1_0 (srcNorm ei)))

/-- The in-degrees: a one added per edge at its target node. -/
def cntK (ei : IVec S2x600000 32) : FVec Ideal S50000 .f32 :=
  Host.scatterAdd scatter_S50000_S600000x1_S600000_n_0_0_1
    (broadcastInDim S50000 ![] bcast_S_S50000 (constant S_ .f32 0x00000000#32))
    (broadcastInDim S600000x1 ![0] bcast_S600000_S600000x1_0 (dstIdx ei))
    (broadcastInDim S600000 ![] bcast_S_S600000 (constant S_ .f32 0x3F800000#32))

/-- The node features added up per graph. -/
def poolK (u : FVec Ideal S50000x64 .f32) (bt : IVec S50000 32) : FVec Ideal S500x64 .f32 :=
  Host.scatterAdd scatter_S500x64_S50000x1_S50000x64_1_0_0_1
    (broadcastInDim S500x64 ![] bcast_S_S500x64 (constant S_ .f32 0x00000000#32))
    (broadcastInDim S50000x1 ![0] bcast_S50000_S50000x1_0 bt) u

/-- The graphs' node counts: a one added per node at its graph. -/
def gcntK (bt : IVec S50000 32) : FVec Ideal S500 .f32 :=
  Host.scatterAdd scatter_S500_S50000x1_S50000_n_0_0_1
    (broadcastInDim S500 ![] bcast_S_S500 (constant S_ .f32 0x00000000#32))
    (broadcastInDim S50000x1 ![0] bcast_S50000_S50000x1_0 bt)
    (broadcastInDim S50000 ![] bcast_S_S50000 (constant S_ .f32 0x3F800000#32))

variable (m : (ℓ : Loc nD τ sig) → Buf (Elt Ideal) ℓ) (ρ : Dev nD → PrngReg)

/-! ## The first region's arrays as it finds them -/

theorem V1_v13 (c : Dev nD) :
    V1 m ρ c main_v13 = aggK (m ((c : Thread nD τ).loc main_arg0)) (m ((c : Thread nD τ).loc main_arg1)) := by
  show StableHlo.after hostOps0 (W0 m ρ c) (Proc.devRef .tc main_v13) = _
  after_results
  rfl

theorem V1_v18 (c : Dev nD) :
    V1 m ρ c main_v18 = shapeCast S50000x1 (cntK (m ((c : Thread nD τ).loc main_arg1))) shapeCasts_S50000_S50000x1 := by
  show StableHlo.after hostOps0 (W0 m ρ c) (Proc.devRef .tc main_v18) = _
  after_results
  rfl

theorem V1_v19 (c : Dev nD) :
    V1 m ρ c main_v19 = shapeCast S1x64 (m ((c : Thread nD τ).loc main_arg4)) shapeCasts_S64_S1x64 := by
  show StableHlo.after hostOps0 (W0 m ρ c) (Proc.devRef .tc main_v19) = _
  after_results
  rfl

theorem V1_arg0 (c : Dev nD) : V1 m ρ c main_arg0 = m ((c : Thread nD τ).loc main_arg0) := by
  show StableHlo.after hostOps0 (W0 m ρ c) (Proc.devRef .tc main_arg0) = _
  after_results

theorem V1_arg3 (c : Dev nD) : V1 m ρ c main_arg3 = m ((c : Thread nD τ).loc main_arg3) := by
  show StableHlo.after hostOps0 (W0 m ρ c) (Proc.devRef .tc main_arg3) = _
  after_results

theorem V1_arg5 (c : Dev nD) : V1 m ρ c main_arg5 = m ((c : Thread nD τ).loc main_arg5) := by
  show StableHlo.after hostOps0 (W0 m ρ c) (Proc.devRef .tc main_arg5) = _
  after_results

/-! ## Between the regions: the first region's result, and the arguments, as the second stretch finds them -/

/-- The first region's result array at its exit is what its write-backs leave. -/
theorem W2_v20 (c : Dev nD) : W2 m ρ c (Proc.devRef .tc main_v20) = (dat0 (V1 m ρ) c).arrAt 6 cfg0.N := W2_arr m ρ c 6

theorem W2_arg2 (c : Dev nD) : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    after_results)

theorem W2_arg6 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results)

theorem W2_arg7 (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results)

theorem W2_arg8 (c : Dev nD) : W2 m ρ c (Proc.devRef .tc main_arg8) = m ((c : Thread nD τ).loc main_arg8) :=
  (W2_of_ne m ρ c main_arg8 (by decide)).trans (by
    show StableHlo.after hostOps0 (W0 m ρ c) (Proc.devRef .tc main_arg8) = _
    after_results)

theorem W2_arg9 (c : Dev nD) : W2 m ρ c (Proc.devRef .tc main_arg9) = m ((c : Thread nD τ).loc main_arg9) :=
  (W2_of_ne m ρ c main_arg9 (by decide)).trans (by
    show StableHlo.after hostOps0 (W0 m ρ c) (Proc.devRef .tc main_arg9) = _
    after_results)

theorem W2_arg10 (c : Dev nD) : W2 m ρ c (Proc.devRef .tc main_arg10) = m ((c : Thread nD τ).loc main_arg10) :=
  (W2_of_ne m ρ c main_arg10 (by decide)).trans (by
    show StableHlo.after hostOps0 (W0 m ρ c) (Proc.devRef .tc main_arg10) = _
    after_results)

theorem W2_arg11 (c : Dev nD) : W2 m ρ c (Proc.devRef .tc main_arg11) = m ((c : Thread nD τ).loc main_arg11) :=
  (W2_of_ne m ρ c main_arg11 (by decide)).trans (by
    show StableHlo.after hostOps0 (W0 m ρ c) (Proc.devRef .tc main_arg11) = _
    after_results)

theorem W2_arg12 (c : Dev nD) : W2 m ρ c (Proc.devRef .tc main_arg12) = m ((c : Thread nD τ).loc main_arg12) :=
  (W2_of_ne m ρ c main_arg12 (by decide)).trans (by
    show StableHlo.after hostOps0 (W0 m ρ c) (Proc.devRef .tc main_arg12) = _
    after_results)

theorem W2_arg13 (c : Dev nD) : W2 m ρ c (Proc.devRef .tc main_arg13) = m ((c : Thread nD τ).loc main_arg13) :=
  (W2_of_ne m ρ c main_arg13 (by decide)).trans (by
    show StableHlo.after hostOps0 (W0 m ρ c) (Proc.devRef .tc main_arg13) = _
    after_results)

/-! ## The second region's arrays as it finds them -/

theorem V3_v23 (c : Dev nD) :
    V3 m ρ c main_v23 = poolK (W2 m ρ c (Proc.devRef .tc main_v20)) (m ((c : Thread nD τ).loc main_arg2)) := by
  rw [← W2_arg2 m ρ c]
  show StableHlo.after hostOps1 (W2 m ρ c) (Proc.devRef .tc main_v23) = _
  after_results
  rfl

theorem V3_v28 (c : Dev nD) :
    V3 m ρ c main_v28 = shapeCast S500x1 (gcntK (m ((c : Thread nD τ).loc main_arg2))) shapeCasts_S500_S500x1 := by
  rw [← W2_arg2 m ρ c]
  show StableHlo.after hostOps1 (W2 m ρ c) (Proc.devRef .tc main_v28) = _
  after_results
  rfl

theorem V3_v29 (c : Dev nD) : V3 m ρ c main_v29 = shapeCast S1x32 (m ((c : Thread nD τ).loc main_arg7)) shapeCasts_S32_S1x32 := by
  rw [← W2_arg7 m ρ c]
  show StableHlo.after hostOps1 (W2 m ρ c) (Proc.devRef .tc main_v29) = _
  after_results
  rfl

theorem V3_v30 (c : Dev nD) : V3 m ρ c main_v30 = shapeCast S1x16 (m ((c : Thread nD τ).loc main_arg9)) shapeCasts_S16_S1x16 := by
  rw [← W2_arg9 m ρ c]
  show StableHlo.after hostOps1 (W2 m ρ c) (Proc.devRef .tc main_v30) = _
  after_results
  rfl

theorem V3_v31 (c : Dev nD) : V3 m ρ c main_v31 = shapeCast S1x8 (m ((c : Thread nD τ).loc main_arg11)) shapeCasts_S8_S1x8 := by
  rw [← W2_arg11 m ρ c]
  show StableHlo.after hostOps1 (W2 m ρ c) (Proc.devRef .tc main_v31) = _
  after_results
  rfl

theorem V3_v32 (c : Dev nD) : V3 m ρ c main_v32 = shapeCast S1x1 (m ((c : Thread nD τ).loc main_arg13)) shapeCasts_S1_S1x1 := by
  rw [← W2_arg13 m ρ c]
  show StableHlo.after hostOps1 (W2 m ρ c) (Proc.devRef .tc main_v32) = _
  after_results
  rfl

theorem V3_arg6 (c : Dev nD) : V3 m ρ c main_arg6 = m ((c : Thread nD τ).loc main_arg6) := by
  rw [← W2_arg6 m ρ c]
  show StableHlo.after hostOps1 (W2 m ρ c) (Proc.devRef .tc main_arg6) = _
  after_results

theorem V3_arg8 (c : Dev nD) : V3 m ρ c main_arg8 = m ((c : Thread nD τ).loc main_arg8) := by
  rw [← W2_arg8 m ρ c]
  show StableHlo.after hostOps1 (W2 m ρ c) (Proc.devRef .tc main_arg8) = _
  after_results

theorem V3_arg10 (c : Dev nD) : V3 m ρ c main_arg10 = m ((c : Thread nD τ).loc main_arg10) := by
  rw [← W2_arg10 m ρ c]
  show StableHlo.after hostOps1 (W2 m ρ c) (Proc.devRef .tc main_arg10) = _
  after_results

theorem V3_arg12 (c : Dev nD) : V3 m ρ c main_arg12 = m ((c : Thread nD τ).loc main_arg12) := by
  rw [← W2_arg12 m ρ c]
  show StableHlo.after hostOps1 (W2 m ρ c) (Proc.devRef .tc main_arg12) = _
  after_results

end Cert.KernelIdeal.HostReads

end
-- ==== Proof.LibRowOfVector.lean ====
/-
  A vector recast as a one-row matrix, read at an index.

  Recasting an `[n]` vector as a `[1, n]` array keeps the row-major order, so the entry at `(0, i)` is the vector's
  entry `i`.
-/
import Idealize.ShloMosaic.Lib.ValueIdx
import Idealize.ShloMosaic.Lib.Pipeline.Value

noncomputable section

namespace Idealize.ShloMosaic.RowOfVector

open Idealize.ShloMosaic Idealize.ShloMosaic.ValueIdx

variable {α : Type} {n : Nat}

/-- The one-row recast of a vector at `(0, i)` is the vector at `i`. -/
theorem apply (x : (⟨1, ![n]⟩ : Shape).Idx → α) (h : (⟨1, ![n]⟩ : Shape).ShapeCasts ⟨2, ![1, n]⟩) (i : Fin n) :
    shapeCast (⟨2, ![1, n]⟩ : Shape) x h (ix2 (0 : Fin 1) i) = x (ix1 i) := by
  refine shapeCast_apply x h (ix2 (0 : Fin 1) i) (ix1 i) ?_
  rw [Shape.rowMajor_val_one, Shape.rowMajor_val_two]
  show i.val = 0 * n + i.val
  omega

end Idealize.ShloMosaic.RowOfVector

end
-- ==== Proof.KernelValue.lean ====
/-
  The idealized kernel's result as one function of its arguments. The second region's result array holds the head of
  what the second host stretch leaves: the first region's node features pooled per graph, the graphs' node counts
  stood up as a column, and the biases laid as rows. The first region's result array holds the node update of what the
  first host stretch leaves: the neighbour sums, the in-degrees stood up as a column, the bias laid as a row. A vector
  stood up as a column and read back down the column is the vector, and likewise for a row.
-/
import proofs.«155166_j33028298506662_1_alg».proof.Proof.KernelRun
import proofs.«155166_j33028298506662_1_alg».proof.Proof.Region0Value
import proofs.«155166_j33028298506662_1_alg».proof.Proof.Region1Value
import proofs.«155166_j33028298506662_1_alg».proof.Proof.HostReads
import proofs.«155166_j33028298506662_1_alg».proof.Proof.Spec
import proofs.«155166_j33028298506662_1_alg».proof.Proof.LibKeepdims
import proofs.«155166_j33028298506662_1_alg».proof.Proof.LibRowOfVector

set_option maxRecDepth 16384

noncomputable section

namespace Cert.KernelIdeal.KernelValue

open Cert.KernelIdeal Cert.KernelIdeal.Gen Cert.KernelIdeal.HostReads Cert.SageSpec
open Idealize.ShloMosaic Idealize.ShloMosaic.ValueIdx Idealize.ShloMosaic.TcCoe Idealize.SL.Sem

/-- A vector stood up as a one-column array, read down the column, is the vector. -/
theorem colVec_shapeCast {a : Nat} (v : Vc a) (h : (⟨1, ![a]⟩ : Shape).ShapeCasts ⟨2, ![a, 1]⟩) :
    colVec (shapeCast (⟨2, ![a, 1]⟩ : Shape) v h) = v := by
  funext r
  obtain ⟨i, rfl⟩ : ∃ i : Fin a, r = ix1 i := ⟨r 0, eq_ix1 r⟩
  exact Keepdims.shapeCast_a_a1_apply v h i 0

/-- A vector laid as a one-row array, read along the row, is the vector. -/
theorem rowVec_shapeCast {n : Nat} (v : Vc n) (h : (⟨1, ![n]⟩ : Shape).ShapeCasts ⟨2, ![1, n]⟩) :
    rowVec (shapeCast (⟨2, ![1, n]⟩ : Shape) v h) = v := by
  funext r
  obtain ⟨i, rfl⟩ : ∃ i : Fin n, r = ix1 i := ⟨r 0, eq_ix1 r⟩
  exact RowOfVector.apply v h i

variable (m : (ℓ : Loc nD τ sig) → Buf (Elt Ideal) ℓ) (ρ : Dev nD → PrngReg)

/-- The node features the first region leaves: the node update of the neighbour sums, in-degrees and node features. -/
theorem nodes (c : Dev nD) :
    W2 m ρ c (Proc.devRef .tc main_v20)
      = combine (aggK (m ((c : Thread nD τ).loc main_arg0)) (m ((c : Thread nD τ).loc main_arg1)))
          (cntK (m ((c : Thread nD τ).loc main_arg1))) (m ((c : Thread nD τ).loc main_arg0))
          (m ((c : Thread nD τ).loc main_arg3)) (m ((c : Thread nD τ).loc main_arg4)) (m ((c : Thread nD τ).loc main_arg5)) := by
  rw [W2_v20, Region0.final0 (V1 m ρ) c]
  unfold Region0.G0
  rw [V1_v13, V1_v18, V1_v19, V1_arg0, V1_arg3, V1_arg5, colVec_shapeCast, rowVec_shapeCast]

/-- The result array at the second region's exit is what its write-back leaves. -/
theorem W4_v33 (c : Dev nD) : W4 m ρ c (Proc.devRef .tc main_v33) = (dat1 (V3 m ρ) c).arrAt 10 cfg1.N := W4_arr m ρ c 10

/-- The kernel's result: the head of the pooled node features and the graphs' node counts. -/
theorem result (c : Dev nD) :
    W4 m ρ c (Proc.devRef .tc main_v33)
      = head (poolK (combine (aggK (m ((c : Thread nD τ).loc main_arg0)) (m ((c : Thread nD τ).loc main_arg1)))
            (cntK (m ((c : Thread nD τ).loc main_arg1))) (m ((c : Thread nD τ).loc main_arg0))
            (m ((c : Thread nD τ).loc main_arg3)) (m ((c : Thread nD τ).loc main_arg4)) (m ((c : Thread nD τ).loc main_arg5)))
          (m ((c : Thread nD τ).loc main_arg2)))
        (gcntK (m ((c : Thread nD τ).loc main_arg2)))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (m ((c : Thread nD τ).loc main_arg12)) (m ((c : Thread nD τ).loc main_arg13)) := by
  rw [W4_v33, Region1.final1 (V3 m ρ) c]
  unfold Region1.G1
  rw [V3_v23, V3_v28, V3_arg6, V3_v29, V3_arg8, V3_v30, V3_arg10, V3_v31, V3_arg12, V3_v32, nodes,
    colVec_shapeCast, rowVec_shapeCast, rowVec_shapeCast, rowVec_shapeCast, rowVec_shapeCast]

end Cert.KernelIdeal.KernelValue

end
-- ==== Proof.RefValue.lean ====
/-
  The reference program's result, stage by stage, is the shared specification: the node update of the neighbour sums,
  counts and node features, pooled per graph, through the four-layer head.
-/
import proofs.«155166_j33028298506662_1_alg».proof.Proof.Gen.ReferenceIdeal.Read
import proofs.«155166_j33028298506662_1_alg».proof.Proof.Spec

noncomputable section

open scoped BigOperators

namespace Cert.ReferenceIdeal.RefValue

open Cert.ReferenceIdeal Cert.ReferenceIdeal.Read Cert.SageSpec Idealize.ShloMosaic Idealize.ShloMosaic.ValueIdx

/-! ## The reference, stage by stage -/

section Stages

variable (x0 : (⟨S50000x128, .f32⟩ : BufTy).Contents (Elt Ideal)) (x1 : (⟨S2x600000, .i32⟩ : BufTy).Contents (Elt Ideal))
  (x2 : (⟨S50000, .i32⟩ : BufTy).Contents (Elt Ideal)) (x3 : (⟨S128x64, .f32⟩ : BufTy).Contents (Elt Ideal))
  (x4 : (⟨S64, .f32⟩ : BufTy).Contents (Elt Ideal)) (x5 : (⟨S128x64, .f32⟩ : BufTy).Contents (Elt Ideal))
  (x6 : (⟨S64x32, .f32⟩ : BufTy).Contents (Elt Ideal)) (x7 : (⟨S32, .f32⟩ : BufTy).Contents (Elt Ideal))
  (x8 : (⟨S32x16, .f32⟩ : BufTy).Contents (Elt Ideal)) (x9 : (⟨S16, .f32⟩ : BufTy).Contents (Elt Ideal))
  (x10 : (⟨S16x8, .f32⟩ : BufTy).Contents (Elt Ideal)) (x11 : (⟨S8, .f32⟩ : BufTy).Contents (Elt Ideal))
  (x12 : (⟨S8x1, .f32⟩ : BufTy).Contents (Elt Ideal)) (x13 : (⟨S1, .f32⟩ : BufTy).Contents (Elt Ideal))

/-- The per-graph mean: the pooled features divided by the graph's node count floored at one, which is the product
    with the reciprocal of that floored count. -/
theorem stage_v40 :
    val_main_v40 (F := Ideal) x0 x1 x2 x3 x4 x5
      = meanRows (val_main_v31 (F := Ideal) x0 x1 x2 x3 x4 x5) (val_main_v35 (F := Ideal) x2) := by
  funext i
  obtain ⟨p, q, rfl⟩ : ∃ (p : Fin 500) (q : Fin 64), i = ix2 p q := ⟨i 0, i 1, eq_ix2 i⟩
  rw [val_main_v40_apply, val_main_v39_apply, val_main_v38_apply, val_main_v37_apply, val_main_v36_apply,
    val_main_cst_7_apply]
  have e : idx_main_v38 (idx_main_v39 (ix2 p q)) = ix1 p :=
    funext fun a => Fin.ext (by match a with | ⟨0, _⟩ => rfl)
  rw [e]
  generalize val_main_v31 (F := Ideal) x0 x1 x2 x3 x4 x5 = A
  generalize val_main_v35 (F := Ideal) x2 = c
  show Ideal.div (A (ix2 p q)) (max (c (ix1 p)) (Ideal.ofBits .f32 0x3F800000#32))
    = A (ix2 p q) * Ideal.div 1 (max (c (ix1 p)) 1)
  rw [one_f32, mul_recip]

/-- A dense layer: entry (p, q) is row p of the input against column q of the weights, plus entry q of the bias. -/
theorem stage_v44 :
    val_main_v44 (F := Ideal) x0 x1 x2 x3 x4 x5 x6 x7
      = affine (val_main_v40 (F := Ideal) x0 x1 x2 x3 x4 x5) x6 x7 := by
  funext i
  obtain ⟨p, q, rfl⟩ : ∃ (p : Fin 500) (q : Fin 32), i = ix2 p q := ⟨i 0, i 1, eq_ix2 i⟩
  rw [val_main_v44_apply, val_main_v41_apply, val_main_v43_apply, val_main_v42_apply]
  have el : ∀ k : Fin 64, lidx_main_v41 (ix2 p q) k = ix2 p k := fun k =>
    funext fun a => Fin.ext (by match a with | ⟨0, _⟩ => rfl | ⟨1, _⟩ => rfl)
  have er : ∀ k : Fin 64, ridx_main_v41 (ix2 p q) k = ix2 k q := fun k =>
    funext fun a => Fin.ext (by match a with | ⟨0, _⟩ => rfl | ⟨1, _⟩ => rfl)
  have eb : idx_main_v42 (idx_main_v43 (ix2 p q)) = ix1 q :=
    funext fun a => Fin.ext (by match a with | ⟨0, _⟩ => rfl)
  simp only [el, er, eb]
  generalize val_main_v40 (F := Ideal) x0 x1 x2 x3 x4 x5 = H
  rfl

/-- max(·, 0) entry by entry: the zero word denotes zero. -/
theorem stage_v45 :
    val_main_v45 (F := Ideal) x0 x1 x2 x3 x4 x5 x6 x7
      = relu (val_main_v44 (F := Ideal) x0 x1 x2 x3 x4 x5 x6 x7) := by
  funext i
  rw [val_main_v45_apply, val_main_call0_v0_apply, val_main_call0_cst_apply]
  generalize val_main_v44 (F := Ideal) x0 x1 x2 x3 x4 x5 x6 x7 = H
  show max (H i) (Ideal.ofBits .f32 0x00000000#32) = max (H i) 0
  rw [Ideal.ofBits_zero_f32]

/-- A dense layer: entry (p, q) is row p of the input against column q of the weights, plus entry q of the bias. -/
theorem stage_v49 :
    val_main_v49 (F := Ideal) x0 x1 x2 x3 x4 x5 x6 x7 x8 x9
      = affine (val_main_v45 (F := Ideal) x0 x1 x2 x3 x4 x5 x6 x7) x8 x9 := by
  funext i
  obtain ⟨p, q, rfl⟩ : ∃ (p : Fin 500) (q : Fin 16), i = ix2 p q := ⟨i 0, i 1, eq_ix2 i⟩
  rw [val_main_v49_apply, val_main_v46_apply, val_main_v48_apply, val_main_v47_apply]
  have el : ∀ k : Fin 32, lidx_main_v46 (ix2 p q) k = ix2 p k := fun k =>
    funext fun a => Fin.ext (by match a with | ⟨0, _⟩ => rfl | ⟨1, _⟩ => rfl)
  have er : ∀ k : Fin 32, ridx_main_v46 (ix2 p q) k = ix2 k q := fun k =>
    funext fun a => Fin.ext (by match a with | ⟨0, _⟩ => rfl | ⟨1, _⟩ => rfl)
  have eb : idx_main_v47 (idx_main_v48 (ix2 p q)) = ix1 q :=
    funext fun a => Fin.ext (by match a with | ⟨0, _⟩ => rfl)
  simp only [el, er, eb]
  generalize val_main_v45 (F := Ideal) x0 x1 x2 x3 x4 x5 x6 x7 = H
  rfl

/-- max(·, 0) entry by entry: the zero word denotes zero. -/
theorem stage_v50 :
    val_main_v50 (F := Ideal) x0 x1 x2 x3 x4 x5 x6 x7 x8 x9
      = relu (val_main_v49 (F := Ideal) x0 x1 x2 x3 x4 x5 x6 x7 x8 x9) := by
  funext i
  rw [val_main_v50_apply, val_main_call1_v0_apply, val_main_call1_cst_apply]
  generalize val_main_v49 (F := Ideal) x0 x1 x2 x3 x4 x5 x6 x7 x8 x9 = H
  show max (H i) (Ideal.ofBits .f32 0x00000000#32) = max (H i) 0
  rw [Ideal.ofBits_zero_f32]

/-- A dense layer: entry (p, q) is row p of the input against column q of the weights, plus entry q of the bias. -/
theorem stage_v54 :
    val_main_v54 (F := Ideal) x0 x1 x2 x3 x4 x5 x6 x7 x8 x9 x10 x11
      = affine (val_main_v50 (F := Ideal) x0 x1 x2 x3 x4 x5 x6 x7 x8 x9) x10 x11 := by
  funext i
  obtain ⟨p, q, rfl⟩ : ∃ (p : Fin 500) (q : Fin 8), i = ix2 p q := ⟨i 0, i 1, eq_ix2 i⟩
  rw [val_main_v54_apply, val_main_v51_apply, val_main_v53_apply, val_main_v52_apply]
  have el : ∀ k : Fin 16, lidx_main_v51 (ix2 p q) k = ix2 p k := fun k =>
    funext fun a => Fin.ext (by match a with | ⟨0, _⟩ => rfl | ⟨1, _⟩ => rfl)
  have er : ∀ k : Fin 16, ridx_main_v51 (ix2 p q) k = ix2 k q := fun k =>
    funext fun a => Fin.ext (by match a with | ⟨0, _⟩ => rfl | ⟨1, _⟩ => rfl)
  have eb : idx_main_v52 (idx_main_v53 (ix2 p q)) = ix1 q :=
    funext fun a => Fin.ext (by match a with | ⟨0, _⟩ => rfl)
  simp only [el, er, eb]
  generalize val_main_v50 (F := Ideal) x0 x1 x2 x3 x4 x5 x6 x7 x8 x9 = H
  rfl

/-- max(·, 0) entry by entry: the zero word denotes zero. -/
theorem stage_v55 :
    val_main_v55 (F := Ideal) x0 x1 x2 x3 x4 x5 x6 x7 x8 x9 x10 x11
      = relu (val_main_v54 (F := Ideal) x0 x1 x2 x3 x4 x5 x6 x7 x8 x9 x10 x11) := by
  funext i
  rw [val_main_v55_apply, val_main_call2_v0_apply, val_main_call2_cst_apply]
  generalize val_main_v54 (F := Ideal) x0 x1 x2 x3 x4 x5 x6 x7 x8 x9 x10 x11 = H
  show max (H i) (Ideal.ofBits .f32 0x00000000#32) = max (H i) 0
  rw [Ideal.ofBits_zero_f32]

/-- A dense layer: entry (p, q) is row p of the input against column q of the weights, plus entry q of the bias. -/
theorem stage_v59 :
    val_main_v59 (F := Ideal) x0 x1 x2 x3 x4 x5 x6 x7 x8 x9 x10 x11 x12 x13
      = affine (val_main_v55 (F := Ideal) x0 x1 x2 x3 x4 x5 x6 x7 x8 x9 x10 x11) x12 x13 := by
  funext i
  obtain ⟨p, q, rfl⟩ : ∃ (p : Fin 500) (q : Fin 1), i = ix2 p q := ⟨i 0, i 1, eq_ix2 i⟩
  rw [val_main_v59_apply, val_main_v56_apply, val_main_v58_apply, val_main_v57_apply]
  have el : ∀ k : Fin 8, lidx_main_v56 (ix2 p q) k = ix2 p k := fun k =>
    funext fun a => Fin.ext (by match a with | ⟨0, _⟩ => rfl | ⟨1, _⟩ => rfl)
  have er : ∀ k : Fin 8, ridx_main_v56 (ix2 p q) k = ix2 k q := fun k =>
    funext fun a => Fin.ext (by match a with | ⟨0, _⟩ => rfl | ⟨1, _⟩ => rfl)
  have eb : idx_main_v57 (idx_main_v58 (ix2 p q)) = ix1 q :=
    funext fun a => Fin.ext (by
      match a with
      | ⟨0, _⟩ => show (0 : Nat) = q.val; have hq : q.val < 1 := q.isLt; omega)
  simp only [el, er, eb]
  generalize val_main_v55 (F := Ideal) x0 x1 x2 x3 x4 x5 x6 x7 x8 x9 x10 x11 = H
  rfl

/-- The neighbour mean: the neighbour sums divided by the in-degree floored at one, which is the product with the
    reciprocal of that floored count. -/
theorem stage_v22 :
    val_main_v22 (F := Ideal) x0 x1
      = meanRows (val_main_v13 (F := Ideal) x0 x1) (val_main_v17 (F := Ideal) x1) := by
  funext i
  obtain ⟨p, q, rfl⟩ : ∃ (p : Fin 50000) (q : Fin 128), i = ix2 p q := ⟨i 0, i 1, eq_ix2 i⟩
  rw [val_main_v22_apply, val_main_v21_apply, val_main_v20_apply, val_main_v19_apply, val_main_v18_apply,
    val_main_cst_3_apply]
  have e : idx_main_v20 (idx_main_v21 (ix2 p q)) = ix1 p :=
    funext fun a => Fin.ext (by match a with | ⟨0, _⟩ => rfl)
  rw [e]
  generalize val_main_v13 (F := Ideal) x0 x1 = A
  generalize val_main_v17 (F := Ideal) x1 = c
  show Ideal.div (A (ix2 p q)) (max (c (ix1 p)) (Ideal.ofBits .f32 0x3F800000#32))
    = A (ix2 p q) * Ideal.div 1 (max (c (ix1 p)) 1)
  rw [one_f32, mul_recip]

end Stages

/-- The reference's node features after the update are the specification's node update of its own neighbour sums and
    counts: dividing by the floored count is multiplying by its reciprocal, and the bias may be added before or after
    the second product. -/
theorem nodes_eq (x0 : (⟨S50000x128, .f32⟩ : BufTy).Contents (Elt Ideal)) (x1 : (⟨S2x600000, .i32⟩ : BufTy).Contents (Elt Ideal)) (x3 : (⟨S128x64, .f32⟩ : BufTy).Contents (Elt Ideal)) (x4 : (⟨S64, .f32⟩ : BufTy).Contents (Elt Ideal)) (x5 : (⟨S128x64, .f32⟩ : BufTy).Contents (Elt Ideal)) :
    val_main_v28 (F := Ideal) x0 x1 x3 x4 x5
      = combine (val_main_v13 (F := Ideal) x0 x1) (val_main_v17 (F := Ideal) x1) x0 x3 x4 x5 := by
  funext i
  obtain ⟨p, q, rfl⟩ : ∃ (p : Fin 50000) (q : Fin 64), i = ix2 p q := ⟨i 0, i 1, eq_ix2 i⟩
  rw [val_main_v28_apply, val_main_v26_apply, val_main_v23_apply, val_main_v27_apply, val_main_v25_apply,
    val_main_v24_apply, stage_v22]
  have el : ∀ k : Fin 128, lidx_main_v23 (ix2 p q) k = ix2 p k := fun k =>
    funext fun a => Fin.ext (by match a with | ⟨0, _⟩ => rfl | ⟨1, _⟩ => rfl)
  have er : ∀ k : Fin 128, ridx_main_v23 (ix2 p q) k = ix2 k q := fun k =>
    funext fun a => Fin.ext (by match a with | ⟨0, _⟩ => rfl | ⟨1, _⟩ => rfl)
  have el' : ∀ k : Fin 128, lidx_main_v27 (ix2 p q) k = ix2 p k := fun k =>
    funext fun a => Fin.ext (by match a with | ⟨0, _⟩ => rfl | ⟨1, _⟩ => rfl)
  have er' : ∀ k : Fin 128, ridx_main_v27 (ix2 p q) k = ix2 k q := fun k =>
    funext fun a => Fin.ext (by match a with | ⟨0, _⟩ => rfl | ⟨1, _⟩ => rfl)
  have eb : idx_main_v24 (idx_main_v25 (ix2 p q)) = ix1 q :=
    funext fun a => Fin.ext (by match a with | ⟨0, _⟩ => rfl)
  simp only [el, er, el', er', eb]
  generalize val_main_v13 (F := Ideal) x0 x1 = A
  generalize val_main_v17 (F := Ideal) x1 = c
  -- the bias is added before the second product here and after it in the specification
  exact add_right_comm _ _ _

/-- The reference's result is the specification's head of its pooled node features and its per-graph node counts. -/
theorem head_eq (x0 : (⟨S50000x128, .f32⟩ : BufTy).Contents (Elt Ideal)) (x1 : (⟨S2x600000, .i32⟩ : BufTy).Contents (Elt Ideal)) (x2 : (⟨S50000, .i32⟩ : BufTy).Contents (Elt Ideal)) (x3 : (⟨S128x64, .f32⟩ : BufTy).Contents (Elt Ideal)) (x4 : (⟨S64, .f32⟩ : BufTy).Contents (Elt Ideal)) (x5 : (⟨S128x64, .f32⟩ : BufTy).Contents (Elt Ideal)) (x6 : (⟨S64x32, .f32⟩ : BufTy).Contents (Elt Ideal)) (x7 : (⟨S32, .f32⟩ : BufTy).Contents (Elt Ideal)) (x8 : (⟨S32x16, .f32⟩ : BufTy).Contents (Elt Ideal)) (x9 : (⟨S16, .f32⟩ : BufTy).Contents (Elt Ideal)) (x10 : (⟨S16x8, .f32⟩ : BufTy).Contents (Elt Ideal)) (x11 : (⟨S8, .f32⟩ : BufTy).Contents (Elt Ideal)) (x12 : (⟨S8x1, .f32⟩ : BufTy).Contents (Elt Ideal)) (x13 : (⟨S1, .f32⟩ : BufTy).Contents (Elt Ideal)) :
    val_main_v59 (F := Ideal) x0 x1 x2 x3 x4 x5 x6 x7 x8 x9 x10 x11 x12 x13
      = head (val_main_v31 (F := Ideal) x0 x1 x2 x3 x4 x5) (val_main_v35 (F := Ideal) x2) x6 x7 x8 x9 x10 x11 x12 x13 := by
  unfold head
  rw [stage_v59, stage_v55, stage_v54, stage_v50, stage_v49, stage_v45, stage_v44, stage_v40]

end Cert.ReferenceIdeal.RefValue

end
-- ==== Proof.Bridge.lean ====
/-
  The two programs apply the same host operations to the same arguments: the gather of source rows, the scatter-add of
  those rows per target node, the scatter-add of ones per target node, the scatter-add of node features per graph and
  the scatter-add of ones per graph. Each program prints its own copy of the operations' dimension records; the copies
  are the same records, so the kernel's named host terms are the reference's stages. None of the operations is opened.
-/
import proofs.«155166_j33028298506662_1_alg».proof.Proof.HostReads
import proofs.«155166_j33028298506662_1_alg».proof.Proof.Gen.ReferenceIdeal.Read

set_option maxRecDepth 16384

noncomputable section

namespace Cert.Bridge

open Idealize.ShloMosaic Cert.KernelIdeal.HostReads Cert.ReferenceIdeal.Read

/-- The neighbour sums are the reference's. -/
theorem agg_eq (x0 : (⟨Cert.ReferenceIdeal.S50000x128, .f32⟩ : BufTy).Contents (Elt Ideal)) (x1 : (⟨Cert.ReferenceIdeal.S2x600000, .i32⟩ : BufTy).Contents (Elt Ideal)) : aggK x0 x1 = val_main_v13 (F := Ideal) x0 x1 := by
  unfold aggK srcNorm srcIdx dstIdx val_main_v13 val_main_v12 val_main_v11 val_main_v10 val_main_v9 val_main_v8 val_main_v7
    val_main_v6 val_main_v5 val_main_v4 val_main_v3 val_main_v2 val_main_v1 val_main_v0 val_main_c val_main_c_0 val_main_cst
  rfl

/-- The in-degrees are the reference's. -/
theorem cnt_eq (x1 : (⟨Cert.ReferenceIdeal.S2x600000, .i32⟩ : BufTy).Contents (Elt Ideal)) : cntK x1 = val_main_v17 (F := Ideal) x1 := by
  unfold cntK dstIdx val_main_v17 val_main_v16 val_main_v15 val_main_v14 val_main_v3 val_main_v2 val_main_cst_1 val_main_cst_2
  rfl

/-- The graphs' node counts are the reference's. -/
theorem gcnt_eq (x2 : (⟨Cert.ReferenceIdeal.S50000, .i32⟩ : BufTy).Contents (Elt Ideal)) : gcntK x2 = val_main_v35 (F := Ideal) x2 := by
  unfold gcntK val_main_v35 val_main_v34 val_main_v33 val_main_v32 val_main_cst_5 val_main_cst_6
  rfl

/-- Pooling the reference's node features per graph is the reference's pooled stage. -/
theorem pool_eq (x0 : (⟨Cert.ReferenceIdeal.S50000x128, .f32⟩ : BufTy).Contents (Elt Ideal)) (x1 : (⟨Cert.ReferenceIdeal.S2x600000, .i32⟩ : BufTy).Contents (Elt Ideal)) (x2 : (⟨Cert.ReferenceIdeal.S50000, .i32⟩ : BufTy).Contents (Elt Ideal)) (x3 : (⟨Cert.ReferenceIdeal.S128x64, .f32⟩ : BufTy).Contents (Elt Ideal)) (x4 : (⟨Cert.ReferenceIdeal.S64, .f32⟩ : BufTy).Contents (Elt Ideal)) (x5 : (⟨Cert.ReferenceIdeal.S128x64, .f32⟩ : BufTy).Contents (Elt Ideal)) :
    poolK (val_main_v28 (F := Ideal) x0 x1 x3 x4 x5) x2 = val_main_v31 (F := Ideal) x0 x1 x2 x3 x4 x5 := by
  unfold poolK val_main_v31 val_main_v30 val_main_v29 val_main_cst_4
  generalize val_main_v28 (F := Ideal) x0 x1 x3 x4 x5 = u
  rfl

end Cert.Bridge

end
-- ==== Proof.lean ====
/-
  The kernel computes a graph-convolution layer followed by a pooled four-layer head, in two regions: the first updates
  every node from the mean of its neighbours, 2000 rows at a time; the second averages the node features of each graph
  and applies the head. The sums over edges and over nodes are scatter-adds done outside the regions, the same ones the
  reference does.

  Over the extended reals the two programs differ in two places only. Where the reference divides a sum by a count
  floored at one, the kernel multiplies by the reciprocal of that floored count: the floored count is at least one, so
  it is not zero, and division by a nonzero extended real is multiplication by its inverse, for every numerator. And
  the reference adds the first bias between the two matrix products where the kernel adds it after both: addition of
  extended reals is commutative and associative. Narrowing an operand to a shorter float format is the identity there,
  and a matrix-unit product into a zero accumulator is the host's product: the same sum of products. No input need be
  finite for any of this, so the precondition is never opened.

  The three frames: the two kernel programs' are the generated frame certificates; the reference has no kernel, and its
  frame is its generated run with the result dropped. The idealization rewrote no operation, so `preserves` asks
  nothing. For `algebraic`, the kernel's run is taken once more with its result buffer named, that buffer read
  through both regions and both host stretches as one function of the arguments, and the reference's run read stage by
  stage as the same function.
-/
import proofs.«155166_j33028298506662_1_alg».proof.Defs
import proofs.«155166_j33028298506662_1_alg».proof.Proof.Gen.Kernel
import proofs.«155166_j33028298506662_1_alg».proof.Proof.Gen.Kernel.Skeleton
import proofs.«155166_j33028298506662_1_alg».proof.Proof.Gen.Kernel.Launch
import proofs.«155166_j33028298506662_1_alg».proof.Proof.Gen.Kernel.Points
import proofs.«155166_j33028298506662_1_alg».proof.Proof.Gen.Kernel.Frame
import proofs.«155166_j33028298506662_1_alg».proof.Proof.Gen.KernelIdeal
import proofs.«155166_j33028298506662_1_alg».proof.Proof.Gen.KernelIdeal.Skeleton
import proofs.«155166_j33028298506662_1_alg».proof.Proof.Gen.KernelIdeal.Launch
import proofs.«155166_j33028298506662_1_alg».proof.Proof.Gen.KernelIdeal.Points
import proofs.«155166_j33028298506662_1_alg».proof.Proof.Gen.KernelIdeal.Frame
import proofs.«155166_j33028298506662_1_alg».proof.Proof.Gen.ReferenceIdeal
import proofs.«155166_j33028298506662_1_alg».proof.Proof.Gen.Pre_finite_inputs
import proofs.«155166_j33028298506662_1_alg».proof.Proof.Gen.ReferenceIdeal.Run
import proofs.«155166_j33028298506662_1_alg».proof.Proof.Gen.ReferenceIdeal.Read
import proofs.«155166_j33028298506662_1_alg».proof.Proof.KernelValue
import proofs.«155166_j33028298506662_1_alg».proof.Proof.RefValue
import proofs.«155166_j33028298506662_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem Cert.SageSpec Cert.KernelIdeal.HostReads

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the result array at the head of the pooled node update of the arguments. -/
theorem algebraic : Cert.algebraic_KernelIdeal_ReferenceIdeal := by
  intro m ρ m' ρ' _ hagree
  refine ⟨_, (θ_run Cert.KernelIdeal.defs _ _).mono
    (fun r h c => ⟨(h c).1.trans (Cert.KernelIdeal.KernelValue.result m ρ c), (h c).2⟩)
    (Cert.KernelIdeal.RunValue.run_named (F := Ideal) m ρ), ?_⟩
  refine (θ_run Cert.ReferenceIdeal.defs _ _).mono (fun r h c => ⟨(h c).1.trans ?_, (h c).2⟩)
    (Cert.ReferenceIdeal.Value.run (F := Ideal) m' ρ')
  obtain ⟨a0, a1, a2, a3, a4, a5, a6, a7, a8, a9, a10, a11, a12, a13⟩ := hagree c
  rw [Cert.ReferenceIdeal.Read.val_main_v59_eq, a0, a1, a2, a3, a4, a5, a6, a7, a8, a9, a10, a11, a12, a13,
    Cert.ReferenceIdeal.RefValue.head_eq, Cert.Bridge.agg_eq, Cert.Bridge.cnt_eq, Cert.Bridge.gcnt_eq,
    ← Cert.ReferenceIdeal.RefValue.nodes_eq, Cert.Bridge.pool_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
